-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S32000x4096 : Shape := ⟨2, ![32000, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v8 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v8 main_v17
  main_v18

def fn {F : FTy → Type} [FloatOps F] (main_arg0 : FVec F S4096x4096 .f32) (main_arg1 : IVec S4096 32) (main_arg2 : FVec F S32000x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32000x4096 .f32 := Host.absf main_arg2
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_c_2 : IVec S_ 32 := constantI S_ 32 4294967196#32
  let main_v9 : IVec S4096 32 := broadcastInDim S4096 ![] bcast_S_S4096 main_c_2
  let main_v10 : IVec S4096 1 := cmpi .eq main_arg1 main_v9
  let main_c_3 : IVec S_ 32 := constantI S_ 32 0#32
  let main_v11 : IVec S4096 32 := broadcastInDim S4096 ![] bcast_S_S4096 main_c_3
  let main_v12 : IVec S4096 1 := cmpi .sge main_arg1 main_v11
  let main_c_4 : IVec S_ 32 := constantI S_ 32 32000#32
  let main_v13 : IVec S4096 32 := broadcastInDim S4096 ![] bcast_S_S4096 main_c_4
  let main_v14 : IVec S4096 1 := cmpi .slt main_arg1 main_v13
  let main_v15 : IVec S4096 1 := andi main_v12 main_v14
  let main_v16 : IVec S4096 1 := ori main_v10 main_v15
  fn_part1 (F := F) main_v8 main_v16
-- ==== Kernel.lean ====
abbrev S4096x4096 : Shape := ⟨2, ![4096, 4096]⟩
abbrev S4096 : Shape := ⟨1, ![4096]⟩
abbrev S32000x4096 : Shape := ⟨2, ![32000, 4096]⟩
abbrev S_ : Shape := ⟨0, ![]⟩
abbrev S4096x1 : Shape := ⟨2, ![4096, 1]⟩
abbrev S512x4096 : Shape := ⟨2, ![512, 4096]⟩
abbrev S1280x4096 : Shape := ⟨2, ![1280, 4096]⟩
abbrev S512x1 : Shape := ⟨2, ![512, 1]⟩
abbrev S512x1280 : Shape := ⟨2, ![512, 1280]⟩
abbrev S512 : Shape := ⟨1, ![512]⟩

abbrev nBuf : Space → Nat
  | .hbm => 27
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096, .i32⟩
  | .hbm, ⟨2, _⟩ => ⟨S32000x4096, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x4096, .bf16⟩
  | .hbm, ⟨12, _⟩ => ⟨S32000x4096, .bf16⟩
  | .hbm, ⟨13, _⟩ => ⟨S4096x1, .f32⟩
  | .hbm, ⟨14, _⟩ => ⟨S4096, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S1280x4096, .bf16⟩
  | .local _ .vmem, ⟨3, _⟩ => ⟨S1280x4096, .bf16⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v45 : BitVec 1 := Scalar.cmpi .eq arg1 c24_i32
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4096 : S_.BroadcastsInDim S4096 (![] : Fin 0 → Fin S4096.rank)
  shapeCasts_S4096_S4096x1 : S4096.ShapeCasts S4096x1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1280x4096_S1280x4096_0_0 : ∀ a, (![0, 0] : Fin 2 → Nat) a + S1280x4096.size a ≤ S1280x4096.size a
  h_S1280x4096 : 0 < S1280x4096.numel
  shapeCasts_S1280x4096_S1280x4096 : S1280x4096.ShapeCasts S1280x4096
  iota_S512x1280_d1_w32 : S512x1280.Iotas .tc 32 [1]
  broadcasts_S512x1_S512x1280 : S512x1.Broadcasts S512x1280
  reduces_S512x1280_S512 : S512x1280.Reduces [1] S512
  shapeCasts_S512_S512x1 : S512.ShapeCasts S512x1
  shapeCasts_S4096x1_S4096 : S4096x1.ShapeCasts S4096
  reducesTo_S4096_S_d0 : S4096.ReducesTo [0] S_
  h_S_ : 0 < S_.numel
  dot_S512x4096_S1280x4096_S512x1280_1_1_0_0_n_n_wf : DotDims.WF S512x4096 S1280x4096 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x4096.size a ≤ S32000x4096.size a
  hwx0_1 : ∀ i : grid0.Coords, EltTy.bits .bf16 = 32 ∨ (Rect.block (s := S32000x4096) S1280x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def dot_S512x4096_S1280x4096_S512x1280_1_1_0_0_n_n : DotDims S512x4096 S1280x4096 S512x1280 where
  lhsContracting := [1]
  rhsContracting := [1]
  lhsNonContracting := [0]
  rhsNonContracting := [0]
  lhsBatch := []
  rhsBatch := []
  wf := dot_S512x4096_S1280x4096_S512x1280_1_1_0_0_n_n_wf

abbrev win0_0 : Pipeline.Window sig grid0 :=
  Pipeline.Window.ofSpec (Memref.whole main_v4) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1280x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S32000x4096 : Shape := ⟨2, ![32000, 4096]⟩
abbrev S4096x32000 : Shape := ⟨2, ![4096, 32000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .i32⟩
  | .hbm, ⟨2, _⟩ => ⟨S32000x4096, .f32⟩
  | .hbm, ⟨3, _⟩ => ⟨S4096x32000, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x32000, .f32⟩
  | .hbm, ⟨11, _⟩ => ⟨S4096x32000, .f32⟩
  | .hbm, ⟨12, _⟩ => ⟨S4096x32000, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S4096x32000, .f32⟩
  | .hbm, ⟨18, _⟩ => ⟨S4096x32000, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S_, .i32⟩
  | .hbm, ⟨28, _⟩ => ⟨S4096x1, .i32⟩
  | .hbm, ⟨29, _⟩ => ⟨S4096x1, .i1⟩
  | .hbm, ⟨30, _⟩ => ⟨S_, .i32⟩
  | .hbm, ⟨31, _⟩ => ⟨S4096x1, .i32⟩
  | .hbm, ⟨32, _⟩ => ⟨S4096x1, .i32⟩
  | .hbm, ⟨33, _⟩ => ⟨S4096x1, .i32⟩
  | .hbm, ⟨34, _⟩ => ⟨S4096x1x1, .i32⟩
  | .hbm, ⟨35, _⟩ => ⟨S1, .i32⟩
  | .hbm, ⟨36, _⟩ => ⟨S_, .i32⟩
  | .hbm, ⟨37, _⟩ => ⟨S4096x1x1, .i32⟩
  | .hbm, ⟨38, _⟩ => ⟨S4096x1x1, .i1⟩
  | .hbm, ⟨39, _⟩ => ⟨S1x1x1, .i32⟩
  | .hbm, ⟨40, _⟩ => ⟨S4096x1x1, .i32⟩
  | .hbm, ⟨41, _⟩ => ⟨S4096x1x1, .i1⟩
  | .hbm, ⟨42, _⟩ => ⟨S4096x1x1, .i1⟩
  | .hbm, ⟨43, _⟩ => ⟨S_, .i1⟩
  | .hbm, ⟨44, _⟩ => ⟨S4096x1, .i1⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096, .f32⟩
  | .hbm, ⟨50, _⟩ => ⟨S4096, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_c_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_cst : Ref sig .tc := ⟨.hbm, 55, rfl⟩
abbrev main_v12 : Ref sig .tc := ⟨.hbm, 56, rfl⟩
abbrev main_cst_2 : Ref sig .tc := ⟨.hbm, 57, rfl⟩
abbrev main_v13 : Ref sig .tc := ⟨.hbm, 58, rfl⟩
abbrev main_v14 : Ref sig .tc := ⟨.hbm, 59, rfl⟩
abbrev main_cst_3 : Ref sig .tc := ⟨.hbm, 60, rfl⟩
abbrev main_v15 : Ref sig .tc := ⟨.hbm, 61, rfl⟩
abbrev main_v16 : Ref sig .tc := ⟨.hbm, 62, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  dot_S4096x4096_S32000x4096_S4096x32000_1_1_0_0_n_n_wf : DotDims.WF S4096x4096 S32000x4096 S4096x32000 [1] [1] [0] [0] [] []
  gather_S4096x32000_S4096x1x1_S4096x1_n_1_0_0_1_2_11_wf : GatherDims.WF S4096x32000 S4096x1x1 S4096x1 [] [1] [0] [1] [0] 2 ![1, 1]

variable [Facts₀]

def dot_S4096x4096_S32000x4096_S4096x32000_1_1_0_0_n_n : DotDims S4096x4096 S32000x4096 S4096x32000 where
  lhsContracting := [1]
  rhsContracting := [1]
  lhsNonContracting := [0]
  rhsNonContracting := [0]
  lhsBatch := []
  rhsBatch := []
  wf := dot_S4096x4096_S32000x4096_S4096x32000_1_1_0_0_n_n_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.KPieces.lean ====
/-
  What the kernel body leaves behind at a grid point, case by case, as pure functions of what it loads.
  The body keeps three columns per row tile between the 25 runs over the classes — a running shift, a running sum
  of exponentials and the logit picked at the label — resets them at a tile's first run and writes the tile's
  losses at its last.
-/
import proofs.«424419_j3100966388353_3_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The origin of a rank-2 rectangle. -/
theorem hz2 : (![0, 0] : Fin 2 → ℕ) = fun _ => 0 := by
  funext a; match a with | ⟨0, _⟩ => rfl | ⟨1, _⟩ => rfl

/-! ## The body's three running columns, as functions of what it loads

With `x0` the tile's rows of x, `x1` the run's rows of W, `x2` the tile's labels, and `mP`, `lP`, `cP` the running
maximum, running sum and picked logit the point starts from, the body leaves the three columns below. -/

/-- The new running shift: the larger of the old one and the run's row maximum. -/
abbrev newM (x0 : Vec F S512x4096 .bf16) (x1 : Vec F S1280x4096 .bf16) (mP : Vec F S512x1 .f32) : FVec F S512x1 .f32 :=
  k0_pay2 (k0_pay9 x0 x1 mP)

/-- The new running sum: the old one rescaled to the new shift, plus the run's exponentials. -/
abbrev newL (x0 : Vec F S512x4096 .bf16) (x1 : Vec F S1280x4096 .bf16) (mP lP : Vec F S512x1 .f32) : FVec F S512x1 .f32 :=
  k0_pay1 (k0_pay10 x0 x1 mP) lP (k0_pay11 x0 x1 mP)

/-- The new picked logit: the old one plus the run's logits on the columns equal to the label. -/
abbrev newC (i : grid0.Coords) (x0 : Vec F S512x4096 .bf16) (x1 : Vec F S1280x4096 .bf16) (x2 : Vec F S512x1 .i32) (cP : Vec F S512x1 .f32) : FVec F S512x1 .f32 :=
  k0_pay8 i x0 x1 x2 cP

/-! ## First run of a row tile: the columns are reset, then updated -/

theorem soutA_m (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x4096 .bf16) (x1 : Vec F S1280x4096 .bf16) (x2 : Vec F S512x1 .i32) :
    sout0_A_0 c i arg2 harg2 arg3 harg3 arg4 harg4 arg5 harg5 arg6 harg6 arg7 harg7 arg8 harg8 hc0 hc1 x0 x1 x2 = newM x0 x1 k0_pay4 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz2]
  simp only [View.readAt_eq_ld, Memref.IsWhole.read_unread, View.ld_unit_zero (S := S512x4096) hz2, View.ld_unit_zero (S := S1280x4096) hz2, View.ld_unit_zero (S := S512x1) hz2, View.readCov_unit_zero (S := S512x1) _ hz2]

theorem soutA_l (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x4096 .bf16) (x1 : Vec F S1280x4096 .bf16) (x2 : Vec F S512x1 .i32) :
    sout0_A_1 c i arg2 harg2 arg3 harg3 arg4 harg4 arg5 harg5 arg6 harg6 arg7 harg7 arg8 harg8 hc0 hc1 x0 x1 x2 = newL x0 x1 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz2]
  simp only [View.readAt_eq_ld, Memref.IsWhole.read_unread, View.ld_unit_zero (S := S512x4096) hz2, View.ld_unit_zero (S := S1280x4096) hz2, View.ld_unit_zero (S := S512x1) hz2, View.readCov_unit_zero (S := S512x1) _ hz2]

theorem soutA_c (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x4096 .bf16) (x1 : Vec F S1280x4096 .bf16) (x2 : Vec F S512x1 .i32) :
    sout0_A_2 c i arg2 harg2 arg3 harg3 arg4 harg4 arg5 harg5 arg6 harg6 arg7 harg7 arg8 harg8 hc0 hc1 x0 x1 x2 = newC i x0 x1 x2 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz2]
  simp only [View.readAt_eq_ld, Memref.IsWhole.read_unread, View.ld_unit_zero (S := S512x4096) hz2, View.ld_unit_zero (S := S1280x4096) hz2, View.ld_unit_zero (S := S512x1) hz2, View.readCov_unit_zero (S := S512x1) _ hz2]

/-! ## A middle run: the columns are updated from what the run before left -/

theorem soutB_m (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x4096 .bf16) (x1 : Vec F S1280x4096 .bf16) (x2 : Vec F S512x1 .i32) (xs0 : Vec F S512x1 .f32) (xs1 : Vec F S512x1 .f32) (xs2 : Vec F S512x1 .f32) :
    sout0_B_0 c i arg2 harg2 arg3 harg3 arg4 harg4 arg5 harg5 arg6 harg6 arg7 harg7 arg8 harg8 hc0 hc1 x0 x1 x2 xs0 xs1 xs2 = newM x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, Memref.IsWhole.read_unread, View.ld_unit_zero (S := S512x4096) hz2, View.ld_unit_zero (S := S1280x4096) hz2, View.ld_unit_zero (S := S512x1) hz2, View.readCov_unit_zero (S := S512x1) _ hz2]

theorem soutB_l (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x4096 .bf16) (x1 : Vec F S1280x4096 .bf16) (x2 : Vec F S512x1 .i32) (xs0 : Vec F S512x1 .f32) (xs1 : Vec F S512x1 .f32) (xs2 : Vec F S512x1 .f32) :
    sout0_B_1 c i arg2 harg2 arg3 harg3 arg4 harg4 arg5 harg5 arg6 harg6 arg7 harg7 arg8 harg8 hc0 hc1 x0 x1 x2 xs0 xs1 xs2 = newL x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, Memref.IsWhole.read_unread, View.ld_unit_zero (S := S512x4096) hz2, View.ld_unit_zero (S := S1280x4096) hz2, View.ld_unit_zero (S := S512x1) hz2, View.readCov_unit_zero (S := S512x1) _ hz2]

theorem soutB_c (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x4096 .bf16) (x1 : Vec F S1280x4096 .bf16) (x2 : Vec F S512x1 .i32) (xs0 : Vec F S512x1 .f32) (xs1 : Vec F S512x1 .f32) (xs2 : Vec F S512x1 .f32) :
    sout0_B_2 c i arg2 harg2 arg3 harg3 arg4 harg4 arg5 harg5 arg6 harg6 arg7 harg7 arg8 harg8 hc0 hc1 x0 x1 x2 xs0 xs1 xs2 = newC i x0 x1 x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, Memref.IsWhole.read_unread, View.ld_unit_zero (S := S512x4096) hz2, View.ld_unit_zero (S := S1280x4096) hz2, View.ld_unit_zero (S := S512x1) hz2, View.readCov_unit_zero (S := S512x1) _ hz2]

/-! ## The last run: the same update, and the output block is shift + log (sum) − picked -/

theorem soutC_m (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x4096 .bf16) (x1 : Vec F S1280x4096 .bf16) (x2 : Vec F S512x1 .i32) (xs0 : Vec F S512x1 .f32) (xs1 : Vec F S512x1 .f32) (xs2 : Vec F S512x1 .f32) :
    sout0_C_0 c i arg2 harg2 arg3 harg3 arg4 harg4 arg5 harg5 arg6 harg6 arg7 harg7 arg8 harg8 hc0 hc1 x0 x1 x2 xs0 xs1 xs2 = newM x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, Memref.IsWhole.read_unread, View.ld_unit_zero (S := S512x4096) hz2, View.ld_unit_zero (S := S1280x4096) hz2, View.ld_unit_zero (S := S512x1) hz2, View.readCov_unit_zero (S := S512x1) _ hz2]

theorem soutC_l (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x4096 .bf16) (x1 : Vec F S1280x4096 .bf16) (x2 : Vec F S512x1 .i32) (xs0 : Vec F S512x1 .f32) (xs1 : Vec F S512x1 .f32) (xs2 : Vec F S512x1 .f32) :
    sout0_C_1 c i arg2 harg2 arg3 harg3 arg4 harg4 arg5 harg5 arg6 harg6 arg7 harg7 arg8 harg8 hc0 hc1 x0 x1 x2 xs0 xs1 xs2 = newL x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, Memref.IsWhole.read_unread, View.ld_unit_zero (S := S512x4096) hz2, View.ld_unit_zero (S := S1280x4096) hz2, View.ld_unit_zero (S := S512x1) hz2, View.readCov_unit_zero (S := S512x1) _ hz2]

theorem soutC_c (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x4096 .bf16) (x1 : Vec F S1280x4096 .bf16) (x2 : Vec F S512x1 .i32) (xs0 : Vec F S512x1 .f32) (xs1 : Vec F S512x1 .f32) (xs2 : Vec F S512x1 .f32) :
    sout0_C_2 c i arg2 harg2 arg3 harg3 arg4 harg4 arg5 harg5 arg6 harg6 arg7 harg7 arg8 harg8 hc0 hc1 x0 x1 x2 xs0 xs1 xs2 = newC i x0 x1 x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, Memref.IsWhole.read_unread, View.ld_unit_zero (S := S512x4096) hz2, View.ld_unit_zero (S := S1280x4096) hz2, View.ld_unit_zero (S := S512x1) hz2, View.readCov_unit_zero (S := S512x1) _ hz2]

theorem outC (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x4096 .bf16) (x1 : Vec F S1280x4096 .bf16) (x2 : Vec F S512x1 .i32) (xs0 : Vec F S512x1 .f32) (xs1 : Vec F S512x1 .f32) (xs2 : Vec F S512x1 .f32) :
    out0_C_3 c i arg2 harg2 arg3 harg3 arg4 harg4 arg5 harg5 arg6 harg6 arg7 harg7 arg8 harg8 hc0 hc1 x0 x1 x2 xs0 xs1 xs2
      = k0_pay3 (newM x0 x1 xs0) (newL x0 x1 xs0 xs1) (newC i x0 x1 x2 xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, Memref.IsWhole.read_unread, View.ld_unit_zero (S := S512x4096) hz2, View.ld_unit_zero (S := S1280x4096) hz2, View.ld_unit_zero (S := S512x1) hz2, View.readCov_unit_zero (S := S512x1) _ hz2]

end Cert.KernelIdeal.Pieces

end
-- ==== Proof.KPayloads.lean ====
/-
  The kernel body's arithmetic read at one row `p` of a 512-row tile, at the extended reals.
  With the run's logits z_q = ∑_h x0[p,h] · x1[q,h] (q over the run's 1280 classes), the body takes the run's maximum
  by a fold of `max` from −∞, moves the running shift to the larger of it and the old shift, rescales the running sum
  by exp (old shift − new shift) and adds ∑_q exp (z_q − new shift), and adds to the picked logit the z_q whose class
  number (1280 · run + q) equals the row's label; at the last run it writes shift + log (sum) − picked.
-/
import proofs.«424419_j3100966388353_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen
open scoped BigOperators

/-- The logit of row `p` of the tile against row `q` of the run's block of W. -/
def zb (x0 : Vec Ideal S512x4096 .bf16) (x1 : Vec Ideal S1280x4096 .bf16) (p : Fin 512) (q : Fin 1280) : EReal :=
  ∑ h : Fin 4096, x0 (ix2 p h) * x1 (ix2 q h)

/-! ## The matrix product at (p, q) -/

/-- The left operand's index at output (i₀, i₁) and contraction index k: row i₀ … -/
theorem lhs_dot_0 (i : S512x1280.Idx) (k : dot_S512x4096_S1280x4096_S512x1280_1_1_0_0_n_n.contr.Idx) :
    (dot_S512x4096_S1280x4096_S512x1280_1_1_0_0_n_n.lhsIdx i k 0).val = (i 0).val := by
  unfold DotDims.lhsIdx
  rw [dif_neg (show ¬(0 : Fin S512x4096.rank) ∈ dot_S512x4096_S1280x4096_S512x1280_1_1_0_0_n_n.lhsBatch by decide), dif_pos (show (0 : Fin S512x4096.rank) ∈ dot_S512x4096_S1280x4096_S512x1280_1_1_0_0_n_n.lhsNonContracting by decide)]
  rfl
/-- … column k. -/
theorem lhs_dot_1 (i : S512x1280.Idx) (k : dot_S512x4096_S1280x4096_S512x1280_1_1_0_0_n_n.contr.Idx) :
    (dot_S512x4096_S1280x4096_S512x1280_1_1_0_0_n_n.lhsIdx i k 1).val = (k ⟨0, by decide⟩).val :=
  dot_S512x4096_S1280x4096_S512x1280_1_1_0_0_n_n.lhsIdx_val_of_single rfl i k
/-- The right operand's index at output (i₀, i₁) and contraction index k: row i₁ … -/
theorem rhs_dot_0 (i : S512x1280.Idx) (k : dot_S512x4096_S1280x4096_S512x1280_1_1_0_0_n_n.contr.Idx) :
    (dot_S512x4096_S1280x4096_S512x1280_1_1_0_0_n_n.rhsIdx i k 0).val = (i 1).val := by
  unfold DotDims.rhsIdx
  rw [dif_neg (show ¬(0 : Fin S1280x4096.rank) ∈ dot_S512x4096_S1280x4096_S512x1280_1_1_0_0_n_n.rhsBatch by decide), dif_pos (show (0 : Fin S1280x4096.rank) ∈ dot_S512x4096_S1280x4096_S512x1280_1_1_0_0_n_n.rhsNonContracting by decide)]
  rfl
/-- … column k. -/
theorem rhs_dot_1 (i : S512x1280.Idx) (k : dot_S512x4096_S1280x4096_S512x1280_1_1_0_0_n_n.contr.Idx) :
    (dot_S512x4096_S1280x4096_S512x1280_1_1_0_0_n_n.rhsIdx i k 1).val = (k ⟨0, by decide⟩).val :=
  dot_S512x4096_S1280x4096_S512x1280_1_1_0_0_n_n.rhsIdx_val_of_single rfl i k

/-- The matrix product of the two blocks, at (p, q). -/
theorem pay7_apply (x0 : Vec Ideal S512x4096 .bf16) (x1 : Vec Ideal S1280x4096 .bf16) (p : Fin 512) (q : Fin 1280) :
    k0_pay7 (F := Ideal) x0 x1 (ix2 p q) = zb x0 x1 p q := by
  unfold k0_pay7 zb
  rw [shapeCast_self, shapeCast_self]
  refine (Ideal.matmul_constant_zero_apply (φ₁ := .bf16) (φ₂ := .bf16) dot_S512x4096_S1280x4096_S512x1280_1_1_0_0_n_n none x0 x1 (ix2 p q)).trans ?_
  rw [← Equiv.sum_comp (contrEquiv1 dot_S512x4096_S1280x4096_S512x1280_1_1_0_0_n_n 4096 rfl rfl).symm]
  refine Finset.sum_congr rfl fun k _ => ?_
  have hk := contrEquiv1_symm_val dot_S512x4096_S1280x4096_S512x1280_1_1_0_0_n_n 4096 rfl rfl k
  have el : dot_S512x4096_S1280x4096_S512x1280_1_1_0_0_n_n.lhsIdx (ix2 p q) ((contrEquiv1 dot_S512x4096_S1280x4096_S512x1280_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S512x4096_S1280x4096_S512x1280_1_1_0_0_n_n.rhsIdx (ix2 p q) ((contrEquiv1 dot_S512x4096_S1280x4096_S512x1280_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er]

/-! ## The operations that are not pointwise, read at an index -/

section Layout
variable {α : Type}

/-- A [512] vector cast to a [512, 1] column reads, at (p, u), the vector at p. -/
theorem colCast_apply (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A [512, 1] column broadcast to [512, 1280] reads, at (p, q), the column at row p. -/
theorem colBroadcast_apply (v : S512x1.Idx → α) (h : S512x1.Broadcasts S512x1280) (p : Fin 512) (q : Fin 1280) :
    broadcastTo S512x1280 v h (ix2 p q) = v (ix2 p (0 : Fin 1)) := by
  refine broadcastTo_apply v h (ix2 p q) (ix2 p (0 : Fin 1)) fun ax => ?_
  match ax with
  | ⟨0, _⟩ => rfl
  | ⟨1, _⟩ => rfl

end Layout

/-- The index a reduction over the lanes inserts: row p with lane q put back is (p, q). -/
theorem lift_lane (h : S512x1280.Reduces [1] S512) (p : Fin 512) (q : Fin 1280) :
    h.lift (ix1 p) q = ix2 p q :=
  funext fun a => Fin.ext (by
    match a with
    | ⟨0, _⟩ => rfl
    | ⟨1, _⟩ => rfl)

/-- The sum over the lanes, at row p. -/
theorem laneSum_apply (v : FVec Ideal S512x1280 .f32) (h : S512x1280.Reduces [1] S512) (hφ : FKind.Formats .f32)
    (hacc : (0x00000000#32 : BitVec 32) = 0x00000000#32) (p : Fin 512) :
    multiReduction (F := Ideal) .add [1] S512 v 0x00000000#32 h hφ hacc (ix1 p) = ∑ q : Fin 1280, v (ix2 p q) := by
  refine (Ideal.multiReduction_add_single v 0x00000000#32 h hφ hacc (ix1 p)).trans ?_
  show ∑ q : Fin 1280, v (h.lift (ix1 p) q) = _
  exact Finset.sum_congr rfl fun q _ => congrArg v (lift_lane h p q)

/-- The pattern of −∞ denotes ⊥. -/
theorem ofBits_negInf : Ideal.ofBits .f32 0xFF800000#32 = ⊥ := by
  show Ideal.ieee 8 23 (0xFF800000#32 : BitVec 32) = ⊥
  unfold Ideal.ieee
  dsimp only
  rw [if_pos, if_pos, if_pos]
  · decide
  · decide
  · decide

/-- The maximum over the lanes, at row p: the fold of max from −∞. -/
theorem laneMax_apply (v : FVec Ideal S512x1280 .f32) (h : S512x1280.Reduces [1] S512) (hφ : FKind.Formats .f32)
    (hacc : (0xFF800000#32 : BitVec 32) = 0xFF800000#32) (p : Fin 512) :
    multiReduction (F := Ideal) .maximumf [1] S512 v 0xFF800000#32 h hφ hacc (ix1 p)
      = (Finset.univ : Finset (Fin 1280)).fold max (⊥ : EReal) (fun q => v (ix2 p q)) := by
  refine (Ideal.multiReduction_maximumf_single v 0xFF800000#32 h hφ hacc (ix1 p)).trans ?_
  show (Finset.univ : Finset (Fin 1280)).fold max (Ideal.ofBits .f32 0xFF800000#32) (v ∘ h.lift (ix1 p)) = _
  rw [ofBits_negInf]
  exact congrArg (fun f => (Finset.univ : Finset (Fin 1280)).fold max (⊥ : EReal) f) (funext fun q => congrArg v (lift_lane h p q))

/-- The lane number, at (p, q). -/
theorem laneIota_apply (h : S512x1280.Iotas .tc 32 [1]) (p : Fin 512) (q : Fin 1280) :
    iota .tc S512x1280 32 [1] h (ix2 p q) = BitVec.ofNat 32 q.val :=
  iota_single_apply .tc S512x1280 32 1 h (ix2 p q)

/-! ## The body's values at row p -/

/-- The store's cast of a column to its own shape changes nothing. -/
theorem pay2_eq (v : FVec Ideal S512x1 .f32) : k0_pay2 (F := Ideal) v = v := by
  unfold k0_pay2
  exact shapeCast_self v _

/-- The new running shift: the larger of the old one and the run's maximum. -/
theorem pay9_apply (x0 : Vec Ideal S512x4096 .bf16) (x1 : Vec Ideal S1280x4096 .bf16) (mP : Vec Ideal S512x1 .f32) (p : Fin 512) (u : Fin 1) :
    k0_pay9 (F := Ideal) x0 x1 mP (ix2 p u)
      = max (mP (ix2 p u)) ((Finset.univ : Finset (Fin 1280)).fold max (⊥ : EReal) (fun q => zb x0 x1 p q)) := by
  unfold k0_pay9
  show max (mP (ix2 p u)) (shapeCast S512x1 _ _ (ix2 p u)) = _
  rw [colCast_apply, laneMax_apply]
  exact congrArg (max (mP (ix2 p u)))
    (congrArg (fun f => (Finset.univ : Finset (Fin 1280)).fold max (⊥ : EReal) f) (funext fun q => pay7_apply x0 x1 p q))

/-- The shifted exponentials of the run's logits. -/
theorem pay10_apply (x0 : Vec Ideal S512x4096 .bf16) (x1 : Vec Ideal S1280x4096 .bf16) (mP : Vec Ideal S512x1 .f32) (p : Fin 512) (q : Fin 1280) :
    k0_pay10 (F := Ideal) x0 x1 mP (ix2 p q)
      = Ideal.exp (zb x0 x1 p q - k0_pay9 (F := Ideal) x0 x1 mP (ix2 p (0 : Fin 1))) := by
  unfold k0_pay10
  show Ideal.exp (k0_pay7 (F := Ideal) x0 x1 (ix2 p q) - broadcastTo S512x1280 (k0_pay9 (F := Ideal) x0 x1 mP) _ (ix2 p q)) = _
  rw [pay7_apply, colBroadcast_apply]

/-- The factor that moves the old running sum to the new shift. -/
theorem pay11_apply (x0 : Vec Ideal S512x4096 .bf16) (x1 : Vec Ideal S1280x4096 .bf16) (mP : Vec Ideal S512x1 .f32) (p : Fin 512) (u : Fin 1) :
    k0_pay11 (F := Ideal) x0 x1 mP (ix2 p u)
      = Ideal.exp (mP (ix2 p u) - k0_pay9 (F := Ideal) x0 x1 mP (ix2 p u)) := by
  unfold k0_pay11
  rfl

/-- The new running shift at row `p`. -/
theorem newM_apply (x0 : Vec Ideal S512x4096 .bf16) (x1 : Vec Ideal S1280x4096 .bf16) (mP : Vec Ideal S512x1 .f32) (p : Fin 512) :
    k0_pay2 (F := Ideal) (k0_pay9 x0 x1 mP) (ix2 p (0 : Fin 1))
      = max (mP (ix2 p (0 : Fin 1))) ((Finset.univ : Finset (Fin 1280)).fold max (⊥ : EReal) (fun q => zb x0 x1 p q)) := by
  rw [pay2_eq]
  exact pay9_apply x0 x1 mP p 0

/-- The new running sum at row `p`, with `m'` the new running shift there. -/
theorem newL_apply (x0 : Vec Ideal S512x4096 .bf16) (x1 : Vec Ideal S1280x4096 .bf16) (mP lP : Vec Ideal S512x1 .f32) (p : Fin 512) :
    k0_pay1 (F := Ideal) (k0_pay10 x0 x1 mP) lP (k0_pay11 x0 x1 mP) (ix2 p (0 : Fin 1))
      = lP (ix2 p (0 : Fin 1))
          * Ideal.exp (mP (ix2 p (0 : Fin 1)) - k0_pay2 (F := Ideal) (k0_pay9 x0 x1 mP) (ix2 p (0 : Fin 1)))
        + ∑ q : Fin 1280, Ideal.exp (zb x0 x1 p q - k0_pay2 (F := Ideal) (k0_pay9 x0 x1 mP) (ix2 p (0 : Fin 1))) := by
  rw [pay2_eq]
  unfold k0_pay1
  rw [shapeCast_self]
  show lP (ix2 p (0 : Fin 1)) * k0_pay11 (F := Ideal) x0 x1 mP (ix2 p (0 : Fin 1))
      + shapeCast S512x1 _ _ (ix2 p (0 : Fin 1)) = _
  rw [colCast_apply, laneSum_apply, pay11_apply]
  exact congrArg (_ + ·) (Finset.sum_congr rfl fun q _ => pay10_apply x0 x1 mP p q)

/-! ## The picked logit -/

/-- The comparison word at (p, q): whether the class number 1280 · k + q, as a 32-bit word, is the row's label. -/
theorem hit_apply (k : BitVec 32) (x2 : Vec Ideal S512x1 .i32) (hi : S512x1280.Iotas .tc 32 [1]) (hc : S512x1.ShapeCasts S512x1)
    (hb : S512x1.Broadcasts S512x1280) (p : Fin 512) (q : Fin 1280) :
    cmpi .eq (addi (broadcast S512x1280 (Scalar.muli k 1280#32)) (iota .tc S512x1280 32 [1] hi))
        (broadcastTo S512x1280 (shapeCast S512x1 x2 hc) hb) (ix2 p q)
      = IntOp.cmpi .eq (k * 1280#32 + BitVec.ofNat 32 q.val) (x2 (ix2 p (0 : Fin 1))) := by
  show IntOp.cmpi .eq (IntOp.addi (Scalar.muli k 1280#32) (iota .tc S512x1280 32 [1] hi (ix2 p q)))
      (broadcastTo S512x1280 (shapeCast S512x1 x2 hc) hb (ix2 p q)) = _
  rw [laneIota_apply, colBroadcast_apply, shapeCast_self]
  rfl

/-- The masked logit at (p, q): the logit where the class number is the row's label, 0 elsewhere. -/
theorem masked_apply (k : BitVec 32) (x0 : Vec Ideal S512x4096 .bf16) (x1 : Vec Ideal S1280x4096 .bf16) (x2 : Vec Ideal S512x1 .i32)
    (hi : S512x1280.Iotas .tc 32 [1]) (hc : S512x1.ShapeCasts S512x1) (hb : S512x1.Broadcasts S512x1280) (p : Fin 512) (q : Fin 1280) :
    select (cmpi .eq (addi (broadcast S512x1280 (Scalar.muli k 1280#32)) (iota .tc S512x1280 32 [1] hi))
          (broadcastTo S512x1280 (shapeCast S512x1 x2 hc) hb))
        (k0_pay7 (F := Ideal) x0 x1) (broadcast S512x1280 (FloatOps.ofBits (F := Ideal) .f32 0x00000000#32)) (ix2 p q)
      = if k * 1280#32 + BitVec.ofNat 32 q.val = x2 (ix2 p (0 : Fin 1)) then zb x0 x1 p q else 0 := by
  show Scalar.select (cmpi .eq (addi (broadcast S512x1280 (Scalar.muli k 1280#32)) (iota .tc S512x1280 32 [1] hi))
          (broadcastTo S512x1280 (shapeCast S512x1 x2 hc) hb) (ix2 p q))
        (k0_pay7 (F := Ideal) x0 x1 (ix2 p q)) (Ideal.ofBits .f32 0x00000000#32) = _
  rw [hit_apply, pay7_apply, Ideal.ofBits_zero_f32]
  by_cases hq : k * 1280#32 + BitVec.ofNat 32 q.val = x2 (ix2 p (0 : Fin 1))
  · rw [if_pos hq, IntOp.cmpi_eq.mpr hq, select_one]
  · rw [if_neg hq, eq_zero_of_ne_one (fun h => hq (IntOp.cmpi_eq.mp h)), select_zero]

/-- The new picked logit at row `p`: run `k = i 1` adds the logits on the columns `q` whose class number `1280 · k + q`,
    as a 32-bit word, is the row's label. -/
theorem newC_apply (i : grid0.Coords) (x0 : Vec Ideal S512x4096 .bf16) (x1 : Vec Ideal S1280x4096 .bf16) (x2 : Vec Ideal S512x1 .i32)
    (cP : Vec Ideal S512x1 .f32) (p : Fin 512) :
    k0_pay8 (F := Ideal) i x0 x1 x2 cP (ix2 p (0 : Fin 1))
      = cP (ix2 p (0 : Fin 1))
        + ∑ q : Fin 1280, (if BitVec.ofNat 32 (i 1).val * 1280#32 + BitVec.ofNat 32 q.val = x2 (ix2 p (0 : Fin 1))
            then zb x0 x1 p q else 0) := by
  unfold k0_pay8
  refine (congrFun (shapeCast_self _ _) (ix2 p (0 : Fin 1))).trans ?_
  show cP (ix2 p (0 : Fin 1)) + shapeCast S512x1 _ _ (ix2 p (0 : Fin 1)) = _
  rw [colCast_apply, laneSum_apply]
  exact congrArg (cP (ix2 p (0 : Fin 1)) + ·)
    (Finset.sum_congr rfl fun q _ => masked_apply (BitVec.ofNat 32 (i 1).val) x0 x1 x2 _ _ _ p q)

/-- The written loss at row `p`: shift + log (sum) − picked. -/
theorem pay3_apply (mN lN cN : Vec Ideal S512x1 .f32) (p : Fin 512) :
    k0_pay3 (F := Ideal) mN lN cN (ix2 p (0 : Fin 1))
      = mN (ix2 p (0 : Fin 1)) + Ideal.log (lN (ix2 p (0 : Fin 1))) - cN (ix2 p (0 : Fin 1)) := by
  unfold k0_pay3
  rfl

/-- The word 0xFF333332 has exponent field 254, neither all ones nor zero: it denotes a (negative) real number. -/
theorem ofBits_reset : ∃ r : ℝ, Ideal.ofBits .f32 0xFF333332#32 = (r : EReal) := by
  show ∃ r : ℝ, Ideal.ieee 8 23 (0xFF333332#32 : BitVec 32) = (r : EReal)
  unfold Ideal.ieee
  dsimp only
  rw [if_neg, if_neg]
  · exact ⟨_, rfl⟩
  · decide
  · decide

/-- The reset value of the running shift is a (large negative) real number. -/
theorem pay4_apply (j : S512x1.Idx) : ∃ r : ℝ, k0_pay4 (F := Ideal) j = (r : EReal) := by
  unfold k0_pay4
  rw [shapeCast_self]
  exact ofBits_reset

/-- The reset value of the running sum is 0. -/
theorem pay5_apply (j : S512x1.Idx) : k0_pay5 (F := Ideal) j = 0 := by
  unfold k0_pay5
  rw [shapeCast_self]
  exact Ideal.ofBits_zero_f32

/-- The reset value of the picked logit is 0. -/
theorem pay6_apply (j : S512x1.Idx) : k0_pay6 (F := Ideal) j = 0 := by
  unfold k0_pay6
  rw [shapeCast_self]
  exact Ideal.ofBits_zero_f32

end Cert.KernelIdeal.Payloads

end
-- ==== Proof.KBlocks.lean ====
/-
  Where the kernel's blocks sit in its arrays. The grid has 200 points: point t works on row tile t / 25
  (512 rows of x, of the labels and of the output) and on class run t % 25 (1280 rows of W). The arrays the
  windows read are, at the extended reals, x itself, W itself (a change of float format is the identity) and the
  column of labels with the ignore index replaced by class 0.
-/
import proofs.«424419_j3100966388353_3_alg».proof.Proof.Gen.KernelIdeal.Frame
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The printed index maps, decided over the grid: the row-tile windows sit at block row t / 25, the window of W at
    block row t % 25, all at block column 0; and the second grid coordinate of point t is t % 25. -/
theorem idx_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0
    ∧ win0_3.index t (0 : Fin 2) = t.val / 25 ∧ win0_3.index t (1 : Fin 2) = 0
    ∧ ((grid0.coords t) (1 : Fin 2)).val = t.val % 25 :=
  (by decide +kernel : ∀ t : Fin grid0.N, _)

theorem t_lt (t : Fin cfg0.N) : t.val < 200 := lt_of_lt_of_eq t.isLt (show cfg0.N = 200 from N_0)

/-- The global row of row `p` of point `t`'s row tile. -/
def rowOf (t : Fin cfg0.N) (p : Fin 512) : Fin 4096 :=
  ⟨512 * (t.val / 25) + p.val, by have := t_lt t; have := p.isLt; omega⟩

/-- The global class of column `q` of point `t`'s class run. -/
def classOf (t : Fin cfg0.N) (q : Fin 1280) : Fin 32000 :=
  ⟨1280 * (t.val % 25) + q.val, by have := t_lt t; have := q.isLt; omega⟩

/-- The block of x at point `t`: rows of tile t / 25. -/
theorem xblk_apply (c : Dev nD) (t : Fin cfg0.N) (p : Fin 512) (h : Fin 4096) :
    (iblk m c 0 t : Vec F S512x4096 .bf16) (ix2 p h) = V m c main_v4 (ix2 (rowOf t p) h) := by
  obtain ⟨e0, e1, -⟩ := idx_facts t
  show V m c main_v4 (((cfg0.win 0).blk t).view.emb (ix2 p h)) = _
  refine congrArg (V m c main_v4) ?_
  funext a; apply Fin.ext
  match a with
  | ⟨0, _⟩ => show win0_0.index t (0 : Fin 2) * 512 + 1 * p.val = 512 * (t.val / 25) + p.val; omega
  | ⟨1, _⟩ => show win0_0.index t (1 : Fin 2) * 4096 + 1 * h.val = h.val; omega

/-- The block of W at point `t`: rows of run t % 25. -/
theorem wblk_apply (c : Dev nD) (t : Fin cfg0.N) (q : Fin 1280) (h : Fin 4096) :
    (iblk m c 1 t : Vec F S1280x4096 .bf16) (ix2 q h) = V m c main_v5 (ix2 (classOf t q) h) := by
  obtain ⟨-, -, e0, e1, -⟩ := idx_facts t
  show V m c main_v5 (((cfg0.win 1).blk t).view.emb (ix2 q h)) = _
  refine congrArg (V m c main_v5) ?_
  funext a; apply Fin.ext
  match a with
  | ⟨0, _⟩ => show win0_1.index t (0 : Fin 2) * 1280 + 1 * q.val = 1280 * (t.val % 25) + q.val; omega
  | ⟨1, _⟩ => show win0_1.index t (1 : Fin 2) * 4096 + 1 * h.val = h.val; omega

/-- The block of labels at point `t`: rows of tile t / 25. -/
theorem yblk_apply (c : Dev nD) (t : Fin cfg0.N) (p : Fin 512) :
    (iblk m c 2 t : Vec F S512x1 .i32) (ix2 p (0 : Fin 1)) = V m c main_v3 (ix2 (rowOf t p) (0 : Fin 1)) := by
  obtain ⟨-, -, -, -, e0, e1, -⟩ := idx_facts t
  show V m c main_v3 (((cfg0.win 2).blk t).view.emb (ix2 p (0 : Fin 1))) = _
  refine congrArg (V m c main_v3) ?_
  funext a; apply Fin.ext
  match a with
  | ⟨0, _⟩ => show win0_2.index t (0 : Fin 2) * 512 + 1 * p.val = 512 * (t.val / 25) + p.val; omega
  | ⟨1, _⟩ => show win0_2.index t (1 : Fin 2) * 1 + 1 * 0 = 0; omega

/-! ## The arrays the windows read, as the region finds them -/

/-- x, narrowed in format. -/
theorem V_x (c : Dev nD) :
    (V m c main_v4 : S4096x4096.Idx → Elt F .bf16) = truncf .bf16 (m ((c : Thread nD τ).loc main_arg0)) bitsLt_bf16_f32 := by
  dsimp only [V, V0]
  simp only [hostOps0, hostOps0_1, hostOps0_2, List.flatten_cons, List.flatten_nil, List.append_nil, List.cons_append, List.nil_append]
  after_results

/-- W, narrowed in format. -/
theorem V_w (c : Dev nD) :
    (V m c main_v5 : S32000x4096.Idx → Elt F .bf16) = truncf .bf16 (m ((c : Thread nD τ).loc main_arg2)) bitsLt_bf16_f32 := by
  dsimp only [V, V0]
  simp only [hostOps0, hostOps0_1, hostOps0_2, List.flatten_cons, List.flatten_nil, List.append_nil, List.cons_append, List.nil_append]
  after_results

/-- The labels, the ignore index replaced by 0, as a column. -/
theorem V_y (c : Dev nD) :
    (V m c main_v3 : S4096x1.Idx → BitVec 32)
      = shapeCast S4096x1 (select (cmpi .eq (m ((c : Thread nD τ).loc main_arg1)) (broadcastInDim S4096 ![] bcast_S_S4096 (constantI S_ 32 4294967196#32)))
          (broadcastInDim S4096 ![] bcast_S_S4096 (id (constantI S_ 32 0#32))) (m ((c : Thread nD τ).loc main_arg1))) shapeCasts_S4096_S4096x1 := by
  dsimp only [V, V0]
  simp only [hostOps0, hostOps0_1, hostOps0_2, List.flatten_cons, List.flatten_nil, List.append_nil, List.cons_append, List.nil_append]
  after_results
  rfl

end Cert.KernelIdeal.Blocks

end
-- ==== Proof.Spec.lean ====
/-
  The mathematics shared by the two programs, over plain real arrays.

  For a row r of the batch the logits are z_j = ∑_h x[r,h] · W[j,h] (j over the 32000 classes), the label used is
  s = 0 when y[r] is the ignore index −100 and y[r] otherwise, and the row's loss is

      log (∑_j exp z_j) − z_s .

  One program takes the log-sum-exp after shifting by the row's maximum; the other accumulates it over 25 runs of
  1280 classes with a running shift μ and a running sum that is rescaled by exp (μ_old − μ_new) whenever the shift
  moves. Both are instances of one identity: for EVERY real μ,  μ + log (∑_j exp (z_j − μ)) = log (∑_j exp z_j).
  So the running shift may start anywhere (here at a large negative finite number) and never needs to be the maximum.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![4096, 4096]⟩
abbrev SW : Shape := ⟨2, ![32000, 4096]⟩
abbrev SY : Shape := ⟨1, ![4096]⟩

/-- The logit of row `r` and class `j`. -/
def logitR (xr : SX.Idx → ℝ) (Wr : SW.Idx → ℝ) (r : Fin 4096) (j : Fin 32000) : ℝ :=
  ∑ h : Fin 4096, xr (ix2 r h) * Wr (ix2 j h)

/-- The label a row uses: class 0 in place of the ignore index −100. -/
def labelOf (y : SY.Idx → BitVec 32) (r : Fin 4096) : BitVec 32 :=
  if y (ix1 r) = 4294967196#32 then 0#32 else y (ix1 r)

/-- Every label is the ignore index or a class id below 32000. -/
def LabelsOk (y : SY.Idx → BitVec 32) : Prop :=
  ∀ r : Fin 4096, y (ix1 r) = 4294967196#32 ∨ (y (ix1 r)).toNat < 32000

/-- Log-sum-exp of `z` minus the entry at position `s` (written as a sum against the indicator of `s`). -/
def lossOf {n : ℕ} (z : Fin n → ℝ) (s : ℕ) : ℝ :=
  Real.log (∑ j, Real.exp (z j)) - ∑ j : Fin n, if j.val = s then z j else 0

/-- The loss of row `r`. -/
def rowLossR (xr : SX.Idx → ℝ) (Wr : SW.Idx → ℝ) (y : SY.Idx → BitVec 32) (r : Fin 4096) : ℝ :=
  lossOf (logitR xr Wr r) (labelOf y r).toNat

theorem labelOf_lt {y : SY.Idx → BitVec 32} (hy : LabelsOk y) (r : Fin 4096) : (labelOf y r).toNat < 32000 := by
  unfold labelOf
  split_ifs with h
  · decide
  · rcases hy r with h' | h'
    · exact absurd h' h
    · exact h'

/-- A finite sum of reals, cast to the extended reals, is the sum of the casts. -/
theorem coe_sum {ι : Type*} (t : Finset ι) (f : ι → ℝ) : ((∑ j ∈ t, f j : ℝ) : EReal) = ∑ j ∈ t, (f j : EReal) := by
  classical
  refine Finset.induction_on t ?_ ?_
  · simp
  · intro x u hx ih
    rw [Finset.sum_insert hx, Finset.sum_insert hx, EReal.coe_add, ih]

/-- The cast to the extended reals is monotone, so it commutes with `max`. -/
theorem ereal_coe_max (x y : ℝ) : ((max x y : ℝ) : EReal) = max (x : EReal) (y : EReal) :=
  EReal.coe_strictMono.monotone.map_max

/-- Folding `max` from −∞ over finitely many reals gives −∞ or a real. -/
theorem fold_max_bot_or_coe {ι : Type*} [DecidableEq ι] (u : Finset ι) (a : ι → ℝ) :
    u.fold max (⊥ : EReal) (fun q => (a q : EReal)) = ⊥
      ∨ ∃ M : ℝ, u.fold max (⊥ : EReal) (fun q => (a q : EReal)) = (M : EReal) := by
  refine Finset.induction_on u ?_ ?_
  · left
    exact Finset.fold_empty
  · intro x v hx ih
    right
    rw [Finset.fold_insert hx]
    rcases ih with h | ⟨M, h⟩
    · exact ⟨a x, by rw [h]; exact max_eq_left bot_le⟩
    · exact ⟨max (a x) M, by rw [h, ereal_coe_max]⟩

/-- The maximum of finitely many reals, folded from −∞ in the extended reals, is a real when there is at least one. -/
theorem fold_max_coe {n : ℕ} (hn : 0 < n) (a : Fin n → ℝ) :
    ∃ M : ℝ, (Finset.univ : Finset (Fin n)).fold max (⊥ : EReal) (fun q => (a q : EReal)) = (M : EReal) := by
  -- split off the entry at index 0: the fold is the max of that real and a fold that is −∞ or a real
  have h0 : (Finset.univ : Finset (Fin n)) = insert (⟨0, hn⟩ : Fin n) (Finset.univ.erase ⟨0, hn⟩) :=
    (Finset.insert_erase (Finset.mem_univ _)).symm
  rw [h0, Finset.fold_insert (Finset.notMem_erase _ _)]
  rcases fold_max_bot_or_coe (Finset.univ.erase (⟨0, hn⟩ : Fin n)) a with h | ⟨M, h⟩
  · exact ⟨a ⟨0, hn⟩, by rw [h]; exact max_eq_left bot_le⟩
  · exact ⟨max (a ⟨0, hn⟩) M, by rw [h, ereal_coe_max]⟩

/-- The shift identity: for every real `μ`, `μ + log ∑ exp (z − μ) = log ∑ exp z`. -/
theorem lse_shift {n : ℕ} (hn : 0 < n) (z : Fin n → ℝ) (μ : ℝ) :
    μ + Real.log (∑ j, Real.exp (z j - μ)) = Real.log (∑ j, Real.exp (z j)) := by
  haveI : Nonempty (Fin n) := ⟨⟨0, hn⟩⟩
  have hpos : 0 < ∑ j, Real.exp (z j) := Finset.sum_pos (fun j _ => Real.exp_pos _) Finset.univ_nonempty
  -- exp (z − μ) = exp z · exp (−μ), so the shifted sum is the plain sum times exp (−μ)
  have h1 : ∑ j, Real.exp (z j - μ) = (∑ j, Real.exp (z j)) * Real.exp (-μ) := by
    rw [Finset.sum_mul]
    refine Finset.sum_congr rfl (fun j _ => ?_)
    rw [sub_eq_add_neg, Real.exp_add]
  rw [h1, Real.log_mul hpos.ne' (Real.exp_pos _).ne', Real.log_exp]
  ring

/-- A sum over the indices below `a + b` is the sum below `a` plus the run of `b` entries from `a`. -/
theorem sum_below_add {M : Type*} [AddCommMonoid M] {n : ℕ} (f : Fin n → M) (a b : ℕ) (hab : a + b ≤ n) :
    (∑ j : Fin n with j.val < a + b, f j)
      = (∑ j : Fin n with j.val < a, f j) + ∑ q : Fin b, f ⟨a + q.val, by have := q.isLt; omega⟩ := by
  induction b with
  | zero => simp
  | succ b ih =>
    -- the indices below a + (b + 1) are those below a + b together with the index a + b itself
    have hfilter : (Finset.univ.filter (fun j : Fin n => j.val < a + (b + 1)))
        = insert (⟨a + b, by omega⟩ : Fin n) (Finset.univ.filter (fun j : Fin n => j.val < a + b)) := by
      ext j
      simp only [Finset.mem_filter, Finset.mem_univ, true_and, Finset.mem_insert, Fin.ext_iff]
      omega
    rw [hfilter, Finset.sum_insert (by simp), ih (by omega), Fin.sum_univ_castSucc]
    simp only [Fin.coe_castSucc, Fin.val_last]
    rw [add_comm, add_assoc]

/-- Moving the running sum from shift `μ` to shift `μ'` multiplies each term by `exp (μ − μ')`, since
    `exp (z − μ) · exp (μ − μ') = exp (z − μ')`; adding the run's terms at shift `μ'` gives the sum below `a + b`. -/
theorem run_sum_step {n : ℕ} (z : Fin n → ℝ) (a b : ℕ) (hab : a + b ≤ n) (μ μ' : ℝ) :
    ((∑ j : Fin n with j.val < a, Real.exp (z j - μ) : ℝ) : EReal) * Ideal.exp ((μ : EReal) - (μ' : EReal))
        + ∑ q : Fin b, Ideal.exp (((z ⟨a + q.val, by have := q.isLt; omega⟩ : ℝ) : EReal) - (μ' : EReal))
      = ((∑ j : Fin n with j.val < a + b, Real.exp (z j - μ') : ℝ) : EReal) := by
  rw [sum_below_add (fun j : Fin n => Real.exp (z j - μ')) a b hab, EReal.coe_add,
    coe_sum (Finset.univ : Finset (Fin b))]
  -- the run's terms agree on both sides as they stand; what is left is the rescaled running sum
  congr 1
  rw [← EReal.coe_sub, Ideal.exp_coe, ← EReal.coe_mul, Finset.sum_mul]
  congr 1
  refine Finset.sum_congr rfl (fun j _ => ?_)
  rw [← Real.exp_add]
  congr 1
  ring

/-- The picked logit below `a + b` is the picked logit below `a` plus the run's indicator terms. -/
theorem run_pick_step {n : ℕ} (z : Fin n → ℝ) (s : ℕ) (a b : ℕ) (hab : a + b ≤ n) :
    ((∑ j : Fin n with j.val < a, (if j.val = s then z j else 0) : ℝ) : EReal)
        + ∑ q : Fin b, (if a + q.val = s then ((z ⟨a + q.val, by have := q.isLt; omega⟩ : ℝ) : EReal) else 0)
      = ((∑ j : Fin n with j.val < a + b, (if j.val = s then z j else 0) : ℝ) : EReal) := by
  rw [sum_below_add (fun j : Fin n => if j.val = s then z j else 0) a b hab, EReal.coe_add,
    coe_sum (Finset.univ : Finset (Fin b))]
  congr 1
  refine Finset.sum_congr rfl (fun q _ => ?_)
  by_cases h : a + q.val = s
  · rw [if_pos h, if_pos h]
  · rw [if_neg h, if_neg h, EReal.coe_zero]

/-- One run of the running log-sum-exp. Before the run the shift is the real `μ`, the running sum is
    `∑_{j<a} exp (z_j − μ)` and the picked logit so far is `∑_{j<a} [j = s] z_j`. The run takes the fold of `max` over its
    `b` logits from −∞, moves the shift to the larger of the two, rescales the running sum and adds the run's terms. After
    it the same three statements hold below `a + b`, at a new real shift. -/
theorem online_step {n : ℕ} (z : Fin n → ℝ) (s : ℕ) (a b : ℕ) (hb : 0 < b) (hab : a + b ≤ n) (μ : ℝ) :
    ∃ μ' : ℝ,
      max (μ : EReal) ((Finset.univ : Finset (Fin b)).fold max (⊥ : EReal)
          (fun q => ((z ⟨a + q.val, by have := q.isLt; omega⟩ : ℝ) : EReal))) = (μ' : EReal)
      ∧ ((∑ j : Fin n with j.val < a, Real.exp (z j - μ) : ℝ) : EReal) * Ideal.exp ((μ : EReal) - (μ' : EReal))
          + ∑ q : Fin b, Ideal.exp (((z ⟨a + q.val, by have := q.isLt; omega⟩ : ℝ) : EReal) - (μ' : EReal))
        = ((∑ j : Fin n with j.val < a + b, Real.exp (z j - μ') : ℝ) : EReal)
      ∧ ((∑ j : Fin n with j.val < a, (if j.val = s then z j else 0) : ℝ) : EReal)
          + ∑ q : Fin b, (if a + q.val = s then ((z ⟨a + q.val, by have := q.isLt; omega⟩ : ℝ) : EReal) else 0)
        = ((∑ j : Fin n with j.val < a + b, (if j.val = s then z j else 0) : ℝ) : EReal) := by
  -- the run's fold of max is a real M; the new shift is the real max μ M
  obtain ⟨M, hM⟩ := fold_max_coe hb (fun q : Fin b => z ⟨a + q.val, by have := q.isLt; omega⟩)
  refine ⟨max μ M, ?_, run_sum_step z a b hab μ (max μ M), run_pick_step z s a b hab⟩
  rw [hM, ereal_coe_max]

/-- The end of the accumulation: shift plus log of the running sum minus the picked logit is the row's loss. -/
theorem online_final {n : ℕ} (hn : 0 < n) (z : Fin n → ℝ) (s : ℕ) (μ : ℝ) :
    (μ : EReal) + Ideal.log ((∑ j : Fin n with j.val < n, Real.exp (z j - μ) : ℝ) : EReal)
        - ((∑ j : Fin n with j.val < n, (if j.val = s then z j else 0) : ℝ) : EReal)
      = ((lossOf z s : ℝ) : EReal) := by
  -- every index of Fin n is below n, so both sums run over all of Fin n
  have hfilt : (Finset.univ.filter (fun j : Fin n => j.val < n)) = Finset.univ :=
    Finset.filter_true_of_mem (fun j _ => j.isLt)
  haveI : Nonempty (Fin n) := ⟨⟨0, hn⟩⟩
  have hpos : 0 < ∑ j, Real.exp (z j - μ) := Finset.sum_pos (fun j _ => Real.exp_pos _) Finset.univ_nonempty
  rw [hfilt, Ideal.log_coe, if_neg (not_le.2 hpos), ← EReal.coe_add, ← EReal.coe_sub, lse_shift hn z μ]
  rfl

/-- The max-shifted form: with any real shift `M` (the row's maximum in the program),
    `−((z_s − M) − log (0 + ∑_j exp (z_j − M)))` is the row's loss. -/
theorem shifted_row {n : ℕ} (hn : 0 < n) (z : Fin n → ℝ) (s : Fin n) (M : ℝ) :
    -((((z s : ℝ) : EReal) - (M : EReal))
        - Ideal.log ((0 : EReal) + ∑ j : Fin n, Ideal.exp (((z j : ℝ) : EReal) - (M : EReal))))
      = ((lossOf z s.val : ℝ) : EReal) := by
  haveI : Nonempty (Fin n) := ⟨⟨0, hn⟩⟩
  have hsum : ∑ j : Fin n, Ideal.exp (((z j : ℝ) : EReal) - (M : EReal))
      = ((∑ j, Real.exp (z j - M) : ℝ) : EReal) := by
    rw [coe_sum]
    refine Finset.sum_congr rfl (fun j _ => ?_)
    rw [← EReal.coe_sub, Ideal.exp_coe]
  have hpos : 0 < ∑ j, Real.exp (z j - M) := Finset.sum_pos (fun j _ => Real.exp_pos _) Finset.univ_nonempty
  -- the indicator sum at s keeps only the entry z s
  have hpick : (∑ j : Fin n, if j.val = s.val then z j else 0) = z s := by
    rw [Finset.sum_eq_single s]
    · rw [if_pos rfl]
    · intro j _ hj
      rw [if_neg (fun h => hj (Fin.ext h))]
    · intro h
      exact absurd (Finset.mem_univ s) h
  rw [zero_add, hsum, Ideal.log_coe, if_neg (not_le.2 hpos), ← EReal.coe_sub, ← EReal.coe_sub, ← EReal.coe_neg]
  congr 1
  unfold lossOf
  rw [hpick, ← lse_shift hn z M]
  ring

end Cert.Spec

end
-- ==== Proof.KRows.lean ====
/-
  The kernel's three running columns, point by point. At the extended reals and for real inputs, after the body at
  grid point t = 25 · (row tile) + (class run k) the columns hold, at each row of the tile:
  a real shift μ, the sum of exp (z_j − μ) over the classes j below 1280 · (k + 1), and the logit at the row's label
  if that label is below 1280 · (k + 1) — z the row's logits. At a tile's last run the written block is the row losses.
-/
import proofs.«424419_j3100966388353_3_alg».proof.Proof.KPieces
import proofs.«424419_j3100966388353_3_alg».proof.Proof.KPayloads
import proofs.«424419_j3100966388353_3_alg».proof.Proof.KBlocks
import proofs.«424419_j3100966388353_3_alg».proof.Proof.Spec
import Idealize.ShloMosaic.Lib.StableHlo.Predicate

set_option maxRecDepth 16384

noncomputable section

namespace Cert.KernelIdeal.Rows

open Idealize.ShloMosaic Idealize.ShloMosaic.TcCoe Idealize.ShloMosaic.ValueIdx
open Idealize.SL Idealize.SL.Sem
open Cert.KernelIdeal Cert.KernelIdeal.Gen Cert.KernelIdeal.Pieces Cert.KernelIdeal.Payloads Cert.KernelIdeal.Blocks Cert.Spec
open scoped BigOperators

variable (m : (ℓ : Loc nD τ sig) → Buf (Elt Ideal) ℓ)

/-! ## The blocks and the columns a point starts from, at their literal types -/

abbrev xB (c : Dev nD) (t : Fin cfg0.N) : Vec Ideal S512x4096 .bf16 := iblk m c 0 t
abbrev wB (c : Dev nD) (t : Fin cfg0.N) : Vec Ideal S1280x4096 .bf16 := iblk m c 1 t
abbrev yB (c : Dev nD) (t : Fin cfg0.N) : Vec Ideal S512x1 .i32 := iblk m c 2 t

/-- What the point before `t` left in the three columns. -/
abbrev prevM (c : Dev nD) (t : Fin cfg0.N) : Vec Ideal S512x1 .f32 := (outsAt0 m c (t.val - 1) (Nat.lt_of_le_of_lt (Nat.sub_le _ _) t.isLt)).2.1
abbrev prevL (c : Dev nD) (t : Fin cfg0.N) : Vec Ideal S512x1 .f32 := (outsAt0 m c (t.val - 1) (Nat.lt_of_le_of_lt (Nat.sub_le _ _) t.isLt)).2.2.1
abbrev prevC (c : Dev nD) (t : Fin cfg0.N) : Vec Ideal S512x1 .f32 := (outsAt0 m c (t.val - 1) (Nat.lt_of_le_of_lt (Nat.sub_le _ _) t.isLt)).2.2.2

/-! ## The columns after a point, case by case -/

theorem colM_A (c : Dev nD) (t : Fin cfg0.N) (h0 : t.val % 25 = 0) (h1 : ¬t.val % 25 = 24) :
    (outsAt0 m c t.val t.isLt).2.1 = newM (xB m c t) (wB m c t) (k0_pay4 (F := Ideal)) := by
  rw [outsAt0_A m c t h0 h1]; dsimp only
  exact soutA_m (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem colL_A (c : Dev nD) (t : Fin cfg0.N) (h0 : t.val % 25 = 0) (h1 : ¬t.val % 25 = 24) :
    (outsAt0 m c t.val t.isLt).2.2.1 = newL (xB m c t) (wB m c t) (k0_pay4 (F := Ideal)) (k0_pay5 (F := Ideal)) := by
  rw [outsAt0_A m c t h0 h1]; dsimp only
  exact soutA_l (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem colC_A (c : Dev nD) (t : Fin cfg0.N) (h0 : t.val % 25 = 0) (h1 : ¬t.val % 25 = 24) :
    (outsAt0 m c t.val t.isLt).2.2.2 = newC (grid0.coords t) (xB m c t) (wB m c t) (yB m c t) (k0_pay6 (F := Ideal)) := by
  rw [outsAt0_A m c t h0 h1]; dsimp only
  exact soutA_c (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem colM_B (c : Dev nD) (t : Fin cfg0.N) (h0 : ¬t.val % 25 = 0) (h1 : ¬t.val % 25 = 24) :
    (outsAt0 m c t.val t.isLt).2.1 = newM (xB m c t) (wB m c t) (prevM m c t) := by
  rw [outsAt0_B m c t h0 h1]; dsimp only
  exact soutB_m (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevM m c t) (prevL m c t) (prevC m c t)

theorem colL_B (c : Dev nD) (t : Fin cfg0.N) (h0 : ¬t.val % 25 = 0) (h1 : ¬t.val % 25 = 24) :
    (outsAt0 m c t.val t.isLt).2.2.1 = newL (xB m c t) (wB m c t) (prevM m c t) (prevL m c t) := by
  rw [outsAt0_B m c t h0 h1]; dsimp only
  exact soutB_l (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevM m c t) (prevL m c t) (prevC m c t)

theorem colC_B (c : Dev nD) (t : Fin cfg0.N) (h0 : ¬t.val % 25 = 0) (h1 : ¬t.val % 25 = 24) :
    (outsAt0 m c t.val t.isLt).2.2.2 = newC (grid0.coords t) (xB m c t) (wB m c t) (yB m c t) (prevC m c t) := by
  rw [outsAt0_B m c t h0 h1]; dsimp only
  exact soutB_c (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevM m c t) (prevL m c t) (prevC m c t)

theorem colM_C (c : Dev nD) (t : Fin cfg0.N) (h0 : ¬t.val % 25 = 0) (h1 : t.val % 25 = 24) :
    (outsAt0 m c t.val t.isLt).2.1 = newM (xB m c t) (wB m c t) (prevM m c t) := by
  rw [outsAt0_C m c t h0 h1]; dsimp only
  exact soutC_m (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevM m c t) (prevL m c t) (prevC m c t)

theorem colL_C (c : Dev nD) (t : Fin cfg0.N) (h0 : ¬t.val % 25 = 0) (h1 : t.val % 25 = 24) :
    (outsAt0 m c t.val t.isLt).2.2.1 = newL (xB m c t) (wB m c t) (prevM m c t) (prevL m c t) := by
  rw [outsAt0_C m c t h0 h1]; dsimp only
  exact soutC_l (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevM m c t) (prevL m c t) (prevC m c t)

theorem colC_C (c : Dev nD) (t : Fin cfg0.N) (h0 : ¬t.val % 25 = 0) (h1 : t.val % 25 = 24) :
    (outsAt0 m c t.val t.isLt).2.2.2 = newC (grid0.coords t) (xB m c t) (wB m c t) (yB m c t) (prevC m c t) := by
  rw [outsAt0_C m c t h0 h1]; dsimp only
  exact soutC_c (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevM m c t) (prevL m c t) (prevC m c t)

/-- The block written at a tile's last run, from the columns that run leaves. -/
theorem out_C (c : Dev nD) (t : Fin cfg0.N) (h0 : ¬t.val % 25 = 0) (h1 : t.val % 25 = 24) :
    (outsAt0 m c t.val t.isLt).1
      = k0_pay3 (newM (xB m c t) (wB m c t) (prevM m c t)) (newL (xB m c t) (wB m c t) (prevM m c t) (prevL m c t))
          (newC (grid0.coords t) (xB m c t) (wB m c t) (yB m c t) (prevC m c t)) := by
  rw [outsAt0_C m c t h0 h1]; dsimp only
  exact outC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevM m c t) (prevL m c t) (prevC m c t)

/-! ## Real inputs: the blocks' logits, the label word, the class numbers -/

variable (xr : SX.Idx → ℝ) (Wr : SW.Idx → ℝ)

/-- A point's block logits are the row's real logits at the run's classes. -/
theorem zb_eq (c : Dev nD) (t : Fin cfg0.N)
    (hx : (m ((c : Thread nD τ).loc main_arg0) : S4096x4096.Idx → EReal) = fun i => ((xr i : ℝ) : EReal))
    (hW : (m ((c : Thread nD τ).loc main_arg2) : S32000x4096.Idx → EReal) = fun i => ((Wr i : ℝ) : EReal))
    (p : Fin 512) (q : Fin 1280) :
    zb (xB m c t) (wB m c t) p q = ((logitR xr Wr (rowOf t p) (classOf t q) : ℝ) : EReal) := by
  unfold zb logitR
  rw [coe_sum]
  refine Finset.sum_congr rfl fun h _ => ?_
  have e1 : xB m c t (ix2 p h) = ((xr (ix2 (rowOf t p) h) : ℝ) : EReal) := by
    refine (xblk_apply m c t p h).trans ?_
    rw [V_x, hx]; rfl
  have e2 : wB m c t (ix2 q h) = ((Wr (ix2 (classOf t q) h) : ℝ) : EReal) := by
    refine (wblk_apply m c t q h).trans ?_
    rw [V_w, hW]; rfl
  rw [e1, e2, EReal.coe_mul]

/-- A point's label block holds the rows' labels (class 0 for the ignore index). -/
theorem yB_eq (c : Dev nD) (t : Fin cfg0.N) (y : SY.Idx → BitVec 32)
    (hyv : (m ((c : Thread nD τ).loc main_arg1) : S4096.Idx → BitVec 32) = y) (p : Fin 512) :
    yB m c t (ix2 p (0 : Fin 1)) = labelOf y (rowOf t p) := by
  refine (yblk_apply m c t p).trans ?_
  rw [V_y, hyv]
  refine (shapeCast_apply _ shapeCasts_S4096_S4096x1 (ix2 (rowOf t p) (0 : Fin 1)) (ix1 (rowOf t p))
    (by rewrite [Shape.rowMajor_val_two, Shape.rowMajor_val_one]; show (rowOf t p).val = (rowOf t p).val * 1 + 0; omega)).trans ?_
  have hb1 : broadcastInDim S4096 ![] bcast_S_S4096 (constantI S_ 32 4294967196#32) (ix1 (rowOf t p)) = 4294967196#32 :=
    broadcastInDim_apply _ bcast_S_S4096 _ _ ix0 (fun a => a.elim0)
  have hb0 : broadcastInDim S4096 ![] bcast_S_S4096 (id (constantI S_ 32 0#32)) (ix1 (rowOf t p)) = 0#32 :=
    broadcastInDim_apply _ bcast_S_S4096 _ _ ix0 (fun a => a.elim0)
  show Scalar.select (IntOp.cmpi .eq (y (ix1 (rowOf t p))) (broadcastInDim S4096 ![] bcast_S_S4096 (constantI S_ 32 4294967196#32) (ix1 (rowOf t p))))
      (broadcastInDim S4096 ![] bcast_S_S4096 (id (constantI S_ 32 0#32)) (ix1 (rowOf t p))) (y (ix1 (rowOf t p))) = _
  rw [hb1, hb0]
  unfold labelOf
  by_cases he : y (ix1 (rowOf t p)) = 4294967196#32
  · rw [if_pos he, Idealize.ShloMosaic.StableHlo.Predicate.cmpi_eq_iff.mpr he, select_one]
  · rw [if_neg he, eq_zero_of_ne_one (fun h => he (Idealize.ShloMosaic.StableHlo.Predicate.cmpi_eq_iff.mp h)), select_zero]

/-- The class number the body compares with the label, as a 32-bit word, is the class's number. -/
theorem class_word (t : Fin cfg0.N) (q : Fin 1280) (w : BitVec 32) (hw : w.toNat < 32000) :
    (BitVec.ofNat 32 ((grid0.coords t) (1 : Fin 2)).val * 1280#32 + BitVec.ofNat 32 q.val = w)
      ↔ (1280 * (t.val % 25) + q.val = w.toNat) := by
  obtain ⟨-, -, -, -, -, -, -, -, e⟩ := idx_facts t
  rw [e]
  have ht := t_lt t
  have hq := q.isLt
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-! ## One run, at one row -/

/-- One run of the body at row `p` of point `t`'s tile: from a real shift, the exponential sum and the picked logit over
    the classes below this run, to the same over the classes through this run. -/
theorem step_row (c : Dev nD) (t : Fin cfg0.N)
    (hx : (m ((c : Thread nD τ).loc main_arg0) : S4096x4096.Idx → EReal) = fun i => ((xr i : ℝ) : EReal))
    (hW : (m ((c : Thread nD τ).loc main_arg2) : S32000x4096.Idx → EReal) = fun i => ((Wr i : ℝ) : EReal))
    (y : SY.Idx → BitVec 32) (hyv : (m ((c : Thread nD τ).loc main_arg1) : S4096.Idx → BitVec 32) = y) (hy : LabelsOk y)
    (p : Fin 512) (mP lP cP : Vec Ideal S512x1 .f32) (μ : ℝ)
    (hm : mP (ix2 p (0 : Fin 1)) = (μ : EReal))
    (hl : lP (ix2 p (0 : Fin 1))
      = ((∑ j : Fin 32000 with j.val < 1280 * (t.val % 25), Real.exp (logitR xr Wr (rowOf t p) j - μ) : ℝ) : EReal))
    (hc : cP (ix2 p (0 : Fin 1))
      = ((∑ j : Fin 32000 with j.val < 1280 * (t.val % 25),
            (if j.val = (labelOf y (rowOf t p)).toNat then logitR xr Wr (rowOf t p) j else 0) : ℝ) : EReal)) :
    ∃ μ' : ℝ,
      newM (xB m c t) (wB m c t) mP (ix2 p (0 : Fin 1)) = (μ' : EReal)
      ∧ newL (xB m c t) (wB m c t) mP lP (ix2 p (0 : Fin 1))
          = ((∑ j : Fin 32000 with j.val < 1280 * (t.val % 25) + 1280, Real.exp (logitR xr Wr (rowOf t p) j - μ') : ℝ) : EReal)
      ∧ newC (grid0.coords t) (xB m c t) (wB m c t) (yB m c t) cP (ix2 p (0 : Fin 1))
          = ((∑ j : Fin 32000 with j.val < 1280 * (t.val % 25) + 1280,
                (if j.val = (labelOf y (rowOf t p)).toNat then logitR xr Wr (rowOf t p) j else 0) : ℝ) : EReal) := by
  have ht := t_lt t
  obtain ⟨μ', h1, h2, h3⟩ := online_step (logitR xr Wr (rowOf t p)) (labelOf y (rowOf t p)).toNat
    (1280 * (t.val % 25)) 1280 (by norm_num) (by omega) μ
  have hz : (fun q : Fin 1280 => zb (xB m c t) (wB m c t) p q)
      = fun q : Fin 1280 => ((logitR xr Wr (rowOf t p) ⟨1280 * (t.val % 25) + q.val, by have := q.isLt; omega⟩ : ℝ) : EReal) :=
    funext fun q => zb_eq m xr Wr c t hx hW p q
  have hM : newM (xB m c t) (wB m c t) mP (ix2 p (0 : Fin 1)) = (μ' : EReal) := by
    refine (newM_apply (xB m c t) (wB m c t) mP p).trans ?_
    rw [hm, hz]; exact h1
  refine ⟨μ', hM, ?_, ?_⟩
  · refine (newL_apply (xB m c t) (wB m c t) mP lP p).trans ?_
    rw [show k0_pay2 (F := Ideal) (k0_pay9 (xB m c t) (wB m c t) mP) (ix2 p (0 : Fin 1)) = (μ' : EReal) from hM, hl, hm]
    refine Eq.trans ?_ h2
    refine congrArg _ (Finset.sum_congr rfl fun q _ => ?_)
    rw [zb_eq m xr Wr c t hx hW p q]; rfl
  · refine (newC_apply (grid0.coords t) (xB m c t) (wB m c t) (yB m c t) cP p).trans ?_
    rw [hc]
    refine Eq.trans ?_ h3
    refine congrArg _ (Finset.sum_congr rfl fun q _ => ?_)
    rw [yB_eq m c t y hyv p]
    exact if_congr (class_word t q _ (labelOf_lt hy _)) (zb_eq m xr Wr c t hx hW p q) rfl

/-! ## The invariant over the grid -/

/-- After the body at point `t`, at every row of its tile: the shift is a real μ, the running sum is
    ∑ exp (z_j − μ) over the classes through this run, and the picked logit is the label's logit if the label is among
    those classes. -/
def InvAt (c : Dev nD) (y : SY.Idx → BitVec 32) (t : Fin cfg0.N) : Prop :=
  ∀ p : Fin 512, ∃ μ : ℝ,
    (outsAt0 m c t.val t.isLt).2.1 (ix2 p (0 : Fin 1)) = (μ : EReal)
    ∧ (outsAt0 m c t.val t.isLt).2.2.1 (ix2 p (0 : Fin 1))
        = ((∑ j : Fin 32000 with j.val < 1280 * (t.val % 25) + 1280, Real.exp (logitR xr Wr (rowOf t p) j - μ) : ℝ) : EReal)
    ∧ (outsAt0 m c t.val t.isLt).2.2.2 (ix2 p (0 : Fin 1))
        = ((∑ j : Fin 32000 with j.val < 1280 * (t.val % 25) + 1280,
              (if j.val = (labelOf y (rowOf t p)).toNat then logitR xr Wr (rowOf t p) j else 0) : ℝ) : EReal)

/-- The point before `t`. -/
abbrev predPt (t : Fin cfg0.N) : Fin cfg0.N := ⟨t.val - 1, Nat.lt_of_le_of_lt (Nat.sub_le _ _) t.isLt⟩

/-- The invariant at a point, from the invariant at the point before unless the point is a tile's first run. -/
theorem inv_step (c : Dev nD)
    (hx : (m ((c : Thread nD τ).loc main_arg0) : S4096x4096.Idx → EReal) = fun i => ((xr i : ℝ) : EReal))
    (hW : (m ((c : Thread nD τ).loc main_arg2) : S32000x4096.Idx → EReal) = fun i => ((Wr i : ℝ) : EReal))
    (y : SY.Idx → BitVec 32) (hyv : (m ((c : Thread nD τ).loc main_arg1) : S4096.Idx → BitVec 32) = y) (hy : LabelsOk y)
    (t : Fin cfg0.N) (hprev : t.val % 25 = 0 ∨ InvAt m xr Wr c y (predPt t)) :
    InvAt m xr Wr c y t := by
  intro p
  have ht := t_lt t
  by_cases h0 : t.val % 25 = 0
  · -- a tile's first run: the columns start from the reset values
    have h1 : ¬t.val % 25 = 24 := by omega
    obtain ⟨r4, hr4⟩ := pay4_apply (ix2 p (0 : Fin 1))
    have hb : 1280 * (t.val % 25) = 0 := by omega
    have hl0 : k0_pay5 (F := Ideal) (ix2 p (0 : Fin 1))
        = ((∑ j : Fin 32000 with j.val < 1280 * (t.val % 25), Real.exp (logitR xr Wr (rowOf t p) j - r4) : ℝ) : EReal) := by
      rw [pay5_apply, hb]; simp
    have hc0 : k0_pay6 (F := Ideal) (ix2 p (0 : Fin 1))
        = ((∑ j : Fin 32000 with j.val < 1280 * (t.val % 25),
              (if j.val = (labelOf y (rowOf t p)).toNat then logitR xr Wr (rowOf t p) j else 0) : ℝ) : EReal) := by
      rw [pay6_apply, hb]; simp
    obtain ⟨μ', a, b, d⟩ := step_row m xr Wr c t hx hW y hyv hy p (k0_pay4 (F := Ideal)) (k0_pay5 (F := Ideal)) (k0_pay6 (F := Ideal)) r4 hr4 hl0 hc0
    refine ⟨μ', ?_, ?_, ?_⟩
    · rw [colM_A m c t h0 h1]; exact a
    · rw [colL_A m c t h0 h1]; exact b
    · rw [colC_A m c t h0 h1]; exact d
  · -- a later run: the columns start from what the run before left
    have hinv : InvAt m xr Wr c y (predPt t) := hprev.resolve_left h0
    obtain ⟨μ, a0, b0, d0⟩ := hinv p
    have hr : rowOf (predPt t) p = rowOf t p :=
      Fin.ext (by show 512 * ((t.val - 1) / 25) + p.val = 512 * (t.val / 25) + p.val; omega)
    have hb : 1280 * ((t.val - 1) % 25) + 1280 = 1280 * (t.val % 25) := by omega
    rw [hr] at b0 d0
    have b1 : prevL m c t (ix2 p (0 : Fin 1))
        = ((∑ j : Fin 32000 with j.val < 1280 * (t.val % 25), Real.exp (logitR xr Wr (rowOf t p) j - μ) : ℝ) : EReal) := by
      rw [← hb]; exact b0
    have d1 : prevC m c t (ix2 p (0 : Fin 1))
        = ((∑ j : Fin 32000 with j.val < 1280 * (t.val % 25),
              (if j.val = (labelOf y (rowOf t p)).toNat then logitR xr Wr (rowOf t p) j else 0) : ℝ) : EReal) := by
      rw [← hb]; exact d0
    obtain ⟨μ', a, b, d⟩ := step_row m xr Wr c t hx hW y hyv hy p (prevM m c t) (prevL m c t) (prevC m c t) μ a0 b1 d1
    refine ⟨μ', ?_, ?_, ?_⟩
    · by_cases h1 : t.val % 25 = 24
      · rw [colM_C m c t h0 h1]; exact a
      · rw [colM_B m c t h0 h1]; exact a
    · by_cases h1 : t.val % 25 = 24
      · rw [colL_C m c t h0 h1]; exact b
      · rw [colL_B m c t h0 h1]; exact b
    · by_cases h1 : t.val % 25 = 24
      · rw [colC_C m c t h0 h1]; exact d
      · rw [colC_B m c t h0 h1]; exact d

/-- The invariant at every point. -/
theorem inv_all (c : Dev nD)
    (hx : (m ((c : Thread nD τ).loc main_arg0) : S4096x4096.Idx → EReal) = fun i => ((xr i : ℝ) : EReal))
    (hW : (m ((c : Thread nD τ).loc main_arg2) : S32000x4096.Idx → EReal) = fun i => ((Wr i : ℝ) : EReal))
    (y : SY.Idx → BitVec 32) (hyv : (m ((c : Thread nD τ).loc main_arg1) : S4096.Idx → BitVec 32) = y) (hy : LabelsOk y) :
    ∀ (n : ℕ) (hn : n < cfg0.N), InvAt m xr Wr c y ⟨n, hn⟩
  | 0, hn => inv_step m xr Wr c hx hW y hyv hy ⟨0, hn⟩ (Or.inl (Nat.zero_mod _))
  | n + 1, hn => inv_step m xr Wr c hx hW y hyv hy ⟨n + 1, hn⟩ (Or.inr (inv_all c hx hW y hyv hy n (Nat.lt_of_succ_lt hn)))

/-! ## The block written at a tile's last run -/

/-- At a tile's last run the written block holds, at each row, the row's loss. -/
theorem out_rows (c : Dev nD)
    (hx : (m ((c : Thread nD τ).loc main_arg0) : S4096x4096.Idx → EReal) = fun i => ((xr i : ℝ) : EReal))
    (hW : (m ((c : Thread nD τ).loc main_arg2) : S32000x4096.Idx → EReal) = fun i => ((Wr i : ℝ) : EReal))
    (y : SY.Idx → BitVec 32) (hyv : (m ((c : Thread nD τ).loc main_arg1) : S4096.Idx → BitVec 32) = y) (hy : LabelsOk y)
    (t : Fin cfg0.N) (h1 : t.val % 25 = 24) (p : Fin 512) :
    (outsAt0 m c t.val t.isLt).1 (ix2 p (0 : Fin 1)) = ((rowLossR xr Wr y (rowOf t p) : ℝ) : EReal) := by
  have h0 : ¬t.val % 25 = 0 := by omega
  obtain ⟨μ, a, b, d⟩ := inv_all m xr Wr c hx hW y hyv hy t.val t.isLt p
  rw [colM_C m c t h0 h1] at a
  rw [colL_C m c t h0 h1] at b
  rw [colC_C m c t h0 h1] at d
  rw [out_C m c t h0 h1]
  refine (pay3_apply _ _ _ p).trans ?_
  rw [a, b, d]
  have hb : 1280 * (t.val % 25) + 1280 = 32000 := by omega
  rw [hb]
  exact online_final (by norm_num) (logitR xr Wr (rowOf t p)) (labelOf y (rowOf t p)).toNat μ

end Cert.KernelIdeal.Rows

end
-- ==== Proof.KValue.lean ====
/-
  What the kernel's output array holds after the run, and what the host operations after the region make of it.
  Row tile i is written back once, at its last class run (point 25 · i + 24), with the tile's row losses; the eight
  tiles cover the 4096 rows, so the output column ends holding every row's loss. The host tail reshapes the column
  to a vector and takes its mean over the rows whose label is not the ignore index.
-/
import proofs.«424419_j3100966388353_3_alg».proof.Proof.KRows

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Blocks Cert.KernelIdeal.Rows Cert.Spec
open scoped BigOperators

variable (m : (ℓ : Loc nD τ sig) → Buf (Elt Ideal) ℓ) (ρ : Dev nD → PrngReg)
variable (xr : SX.Idx → ℝ) (Wr : SW.Idx → ℝ)

/-- The column of row losses. -/
def lossCol (y : SY.Idx → BitVec 32) : S4096x1.Idx → EReal :=
  fun i => ((rowLossR xr Wr y ⟨(i 0).val, idx2_lt0 i⟩ : ℝ) : EReal)

/-- The block written at a tile's last run, as one function of the row inside the tile. -/
theorem out_block (c : Dev nD)
    (hx : (m ((c : Thread nD τ).loc main_arg0) : S4096x4096.Idx → EReal) = fun i => ((xr i : ℝ) : EReal))
    (hW : (m ((c : Thread nD τ).loc main_arg2) : S32000x4096.Idx → EReal) = fun i => ((Wr i : ℝ) : EReal))
    (y : SY.Idx → BitVec 32) (hyv : (m ((c : Thread nD τ).loc main_arg1) : S4096.Idx → BitVec 32) = y) (hy : LabelsOk y)
    (t : Fin cfg0.N) (h1 : t.val % 25 = 24) :
    (outsAt0 m c t.val t.isLt).1
      = fun j : S512x1.Idx => ((rowLossR xr Wr y (rowOf t ⟨(j 0).val, idx2_lt0 j⟩) : ℝ) : EReal) := by
  funext j
  obtain ⟨p, q, rfl⟩ : ∃ (p : Fin 512) (q : Fin 1), j = ix2 p q := ⟨j 0, j 1, eq_ix2 j⟩
  obtain rfl : q = 0 := Subsingleton.elim _ _
  exact out_rows m xr Wr c hx hW y hyv hy t h1 p

/-- What a flushing point writes back is its block of the loss column. -/
theorem flushed_eq (c : Dev nD)
    (hx : (m ((c : Thread nD τ).loc main_arg0) : S4096x4096.Idx → EReal) = fun i => ((xr i : ℝ) : EReal))
    (hW : (m ((c : Thread nD τ).loc main_arg2) : S32000x4096.Idx → EReal) = fun i => ((Wr i : ℝ) : EReal))
    (y : SY.Idx → BitVec 32) (hyv : (m ((c : Thread nD τ).loc main_arg1) : S4096.Idx → BitVec 32) = y) (hy : LabelsOk y)
    (t : Fin cfg0.N) (hf : (cfg0.win 3).flush t = true) :
    (dats m 0 c).flushed 3 t = ((cfg0.win 3).blk t).view.read (Elt Ideal) (lossCol xr Wr y) := by
  have h1 : t.val % 25 = 24 := (flush0_3 t).mp hf
  obtain ⟨-, -, -, -, -, -, e0, e1, -⟩ := idx_facts t
  show (cfg0.win 3).cut (grid0.coords t) ((dats m 0 c).after 3 t) = _
  rw [after0_3, out_block m xr Wr c hx hW y hyv hy t h1]
  funext j
  show ((rowLossR xr Wr y (rowOf t ⟨(j 0).val, _⟩) : ℝ) : EReal) = lossCol xr Wr y (((cfg0.win 3).blk t).view.emb j)
  unfold lossCol
  refine congrArg (fun r => ((rowLossR xr Wr y r : ℝ) : EReal)) (Fin.ext ?_)
  show 512 * (t.val / 25) + (j 0).val = win0_3.index t (0 : Fin 2) * 512 + 1 * (j 0).val
  omega

/-- An index of the output column is in point `t`'s block iff each coordinate is in the block's range. -/
theorem mem_blk3 (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v6).slice (win0_3.rect t)).set ↔ _
  rw [View.set_slice_whole, Rect.mem_set_unit]
  exact Iff.rfl

/-- Every row of the output column is in the block of its tile's last run, which writes back. -/
theorem cover3 (i : S4096x1.Idx) : ∃ t : Fin cfg0.N, (cfg0.win 3).flush t = true ∧ i ∈ ((cfg0.win 3).blk t).view.set := by
  have hi0 : (i 0).val < 4096 := idx2_lt0 i
  have hi1 : (i 1).val < 1 := idx2_lt1 i
  have hlt : 25 * ((i 0).val / 512) + 24 < cfg0.N := by rw [show cfg0.N = 200 from N_0]; omega
  obtain ⟨t, ht⟩ : ∃ t : Fin cfg0.N, t.val = 25 * ((i 0).val / 512) + 24 := ⟨⟨_, hlt⟩, rfl⟩
  obtain ⟨-, -, -, -, -, -, e0, e1, -⟩ := idx_facts t
  refine ⟨t, (flush0_3 t).mpr (by omega), ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- The output column after the run: every row's loss. -/
theorem final3 (c : Dev nD)
    (hx : (m ((c : Thread nD τ).loc main_arg0) : S4096x4096.Idx → EReal) = fun i => ((xr i : ℝ) : EReal))
    (hW : (m ((c : Thread nD τ).loc main_arg2) : S32000x4096.Idx → EReal) = fun i => ((Wr i : ℝ) : EReal))
    (y : SY.Idx → BitVec 32) (hyv : (m ((c : Thread nD τ).loc main_arg1) : S4096.Idx → BitVec 32) = y) (hy : LabelsOk y) :
    (dats m 0 c).arrAt 3 cfg0.N = lossCol xr Wr y :=
  (dats m 0 c).arrAt_eq_of_cover 3 (lossCol xr Wr y) (fun t hf => flushed_eq m xr Wr c hx hW y hyv hy t hf) cover3

/-! ## The host operations after the region -/

section Tail
variable {F : FTy → Type} [FloatOps F]

/-- The masked mean: the sum of the losses of the rows whose label is not the ignore index, over the number of
    such rows (at least one). -/
def tailOf (nll : FVec F S4096 .f32) (y : IVec S4096 32) : FVec F S_ .f32 :=
  Host.divf
    (Host.reduceAdd (mulf nll (uitofp .f32 (cmpi .ne y (broadcastInDim S4096 ![] bcast_S_S4096 (constantI S_ 32 4294967196#32)))))
      (constant S_ .f32 0x00000000#32) reducesTo_S4096_S_d0 h_S_)
    (maximumf
      (Host.reduceAdd (uitofp .f32 (cmpi .ne y (broadcastInDim S4096 ![] bcast_S_S4096 (constantI S_ 32 4294967196#32))))
        (constant S_ .f32 0x00000000#32) reducesTo_S4096_S_d0 h_S_)
      (constant S_ .f32 0x3F800000#32))

end Tail

/-- The result buffer after the host tail: the masked mean of the output column read as a vector. -/
theorem result_eq (c : Dev nD) :
    Pipeline.afterTail₀ cfgs (dats m) 0 (V0 m) [hostOps1] c main_v15
      = tailOf (F := Ideal) (shapeCast S4096 ((dats m 0 c).arrAt 3 cfg0.N) shapeCasts_S4096x1_S4096) (m ((c : Thread nD τ).loc main_arg1)) := by
  unfold Pipeline.afterTail₀
  show StableHlo.after hostOps1 _ (Proc.devRef .tc main_v15) = _
  after_results
  have eA : Pipeline.withArrays (cfgs 0).spec c (V0 m c) (fun w => (dats m 0 c).arrAt w (cfgs 0).N) (Proc.devRef .tc main_v6)
      = (dats m 0 c).arrAt 3 cfg0.N :=
    Pipeline.withArrays_arr spec0 launch0.win.arr_inj c _ _ 3
  have eY : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  rw [eA, eY]
  rfl

end Cert.KernelIdeal.KValue

end
-- ==== Proof.LibTakeRow.lean ====
/-
  The gather of jnp.take_along_axis (x[B, N], idx[B, 1], axis = 1), read at an index.

  jax lowers it to a stablehlo.gather whose operand axis 0 is a batching axis paired with axis 0 of the start indices,
  whose operand axis 1 is collapsed and is the one axis the start index names, over the indices reshaped to [B, 1, 1]
  with the index vector on axis 2 and slice sizes [1, 1]. Result element (b, 0) is the operand at row b and at the
  column idx[b, 0, 0], read as a signed integer and clamped into [0, N − 1].
-/
import Idealize.ShloMosaic.Lib.ValueIdx

namespace Cert.LibTakeRow

open Idealize.ShloMosaic Idealize.ShloMosaic.ValueIdx

variable {α : Type}

/-- Those dimension numbers for an operand [B, N], start indices [B, 1, 1] and result [B, 1]; their conditions are
    decided on a program's literal shapes. -/
abbrev takeRowDims (B N : Nat)
    (wf : GatherDims.WF ⟨2, ![B, N]⟩ ⟨3, ![B, 1, 1]⟩ ⟨2, ![B, 1]⟩ [] [1] [0] [1] [0] 2 ![1, 1]) :
    GatherDims ⟨2, ![B, N]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- The gather read at (b, 0): the operand at row b and at the column the start index idx[b, 0, 0] names, read signed
    and clamped into [0, N − 1]. -/
theorem gather_takeRow_apply {B N w : Nat} (hN : 0 < N)
    (wf : GatherDims.WF ⟨2, ![B, N]⟩ ⟨3, ![B, 1, 1]⟩ ⟨2, ![B, 1]⟩ [] [1] [0] [1] [0] 2 ![1, 1])
    (x : (⟨2, ![B, N]⟩ : Shape).Idx → α) (idx : IVec ⟨3, ![B, 1, 1]⟩ w) (b : Fin B) :
    Host.gather (takeRowDims B N wf) x idx (ix2 b (0 : Fin 1))
      = x (ix2 b ⟨min (idx (ix3 b (0 : Fin 1) (0 : Fin 1))).toInt.toNat (N - 1), by omega⟩) := by
  unfold Host.gather
  congr 1
  funext a
  refine Fin.ext ?_
  show (takeRowDims B N wf).start (ix2 b (0 : Fin 1)) idx a + (takeRowDims B N wf).batchCoord (ix2 b (0 : Fin 1)) a
      + (takeRowDims B N wf).offCoord (ix2 b (0 : Fin 1)) a = _
  match a with
  | ⟨0, _⟩ =>
    -- the batching axis: no start, no offset, the batch coordinate is the result's row
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 2) ∈ (takeRowDims B N wf).operandBatchingDims from List.mem_singleton.mpr rfl)]
    rfl
  | ⟨1, _⟩ =>
    -- the collapsed axis: no batch coordinate, no offset, the start is the clamped start index
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (takeRowDims B N wf).startIndexMap from List.mem_singleton.mpr rfl)]
    have hsi : (takeRowDims B N wf).siIdx (ix2 b (0 : Fin 1))
        ⟨List.idxOf (⟨1, by decide⟩ : Fin 2) (takeRowDims B N wf).startIndexMap,
          List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

end Cert.LibTakeRow
-- ==== Proof.RefRows.lean ====
/-
  The reference, row by row. Its per-row value before the masked mean is
  −((z_g − M) − log ∑_j exp (z_j − M)), with z the row's logits, M the row's maximum and g the label the gather reads;
  under the label range g is the row's label and the gather is in range, and the value is the row's loss
  log ∑_j exp z_j − z_g  (the shift identity of the specification).
-/
import proofs.«424419_j3100966388353_3_alg».proof.Proof.RefRead
import proofs.«424419_j3100966388353_3_alg».proof.Proof.Spec
import proofs.«424419_j3100966388353_3_alg».proof.Proof.LibTakeRow
import Idealize.ShloMosaic.Lib.StableHlo.Predicate

noncomputable section

namespace Cert.ReferenceIdeal.RefRows

open Idealize.ShloMosaic Idealize.ShloMosaic.ValueIdx Cert.Spec Cert.ReferenceIdeal Cert.ReferenceIdeal.Gen
open Idealize.ShloMosaic.StableHlo.Predicate

/-- The two real inputs cast to the extended reals. -/
abbrev Xc (xr : SX.Idx → ℝ) : SX.Idx → EReal := fun i => ((xr i : ℝ) : EReal)
abbrev Wc (Wr : SW.Idx → ℝ) : SW.Idx → EReal := fun i => ((Wr i : ℝ) : EReal)

/-! ## The float chain: logits, row maximum, log-softmax -/

/-- The pattern of −∞ denotes −∞. -/
theorem ofBits_neg_inf_f32 : FloatOps.ofBits (F := Ideal) .f32 0xFF800000#32 = (⊥ : EReal) := by
  show Ideal.ofBits .f32 0xFF800000#32 = ⊥
  simp [Ideal.ofBits, Ideal.ieee]

/-- The logit of row `r` and class `j`: the contraction over the 4096 features is a real sum. -/
theorem logits_apply (xr : SX.Idx → ℝ) (Wr : SW.Idx → ℝ) (r : Fin 4096) (j : Fin 32000) :
    ReadP.val_main_v0 (F := Ideal) (Xc xr) (Wc Wr) (ix2 r j) = ((logitR xr Wr r j : ℝ) : EReal) := by
  rw [ReadP.val_main_v0_apply]
  unfold logitR
  rw [coe_sum]
  refine Finset.sum_congr rfl (fun k _ => ?_)
  have el : ReadP.lidx_main_v0 (ix2 r j) k = ix2 r k :=
    funext fun a => Fin.ext (by match a with | ⟨0, _⟩ => rfl | ⟨1, _⟩ => rfl)
  have er : ReadP.ridx_main_v0 (ix2 r j) k = ix2 j k :=
    funext fun a => Fin.ext (by match a with | ⟨0, _⟩ => rfl | ⟨1, _⟩ => rfl)
  rw [el, er, EReal.coe_mul]

/-- The class axis of the logits is reduced away to give one entry per row. -/
theorem red_row : S4096x32000.Reduces [1] S4096 := by decide

/-- Row `r` with class `k` put back on the reduced axis is the index `(r, k)`. -/
theorem lift_row (r : Fin 4096) (k : Fin 32000) : red_row.lift (ix1 r) k = ix2 r k :=
  funext fun a => Fin.ext (by match a with | ⟨0, _⟩ => rfl | ⟨1, _⟩ => rfl)

/-- The row's maximum (the fold of max from −∞ over the row's 32000 logits, then max with −∞ once more) is a real. -/
theorem rowmax_real (xr : SX.Idx → ℝ) (Wr : SW.Idx → ℝ) (r : Fin 4096) :
    ∃ M : ℝ, ReadP.val_main_call0_v2 (F := Ideal) (Xc xr) (Wc Wr) (ix1 r) = (M : EReal) := by
  obtain ⟨M, hM⟩ := fold_max_coe (n := 32000) (by decide) (logitR xr Wr r)
  refine ⟨M, ?_⟩
  have hfold : (Finset.univ : Finset (Fin 32000)).fold max (⊥ : EReal)
      (ReadP.val_main_v0 (F := Ideal) (Xc xr) (Wc Wr) ∘ red_row.lift (ix1 r)) = (M : EReal) := by
    have hf : (ReadP.val_main_v0 (F := Ideal) (Xc xr) (Wc Wr) ∘ red_row.lift (ix1 r))
        = fun k : Fin 32000 => ((logitR xr Wr r k : ℝ) : EReal) := funext fun k : Fin 32000 =>
      (congrArg (ReadP.val_main_v0 (F := Ideal) (Xc xr) (Wc Wr)) (lift_row r k)).trans (logits_apply xr Wr r k)
    rw [hf]
    exact hM
  rw [ReadP.val_main_call0_v2_apply, ReadP.val_main_call0_v1_apply, ReadP.val_main_call0_cst_0_apply]
  unfold ReadP.val_main_call0_v0
  rw [Host.reduce_eq_fold_single FloatOps.maximumf _ _ reducesTo_S4096x32000_S4096_d1 red_row h_S_ (ix1 r),
    ReadP.val_main_call0_cst_apply, ofBits_neg_inf_f32]
  show max (⊥ : EReal) ((Finset.univ : Finset (Fin 32000)).fold max (⊥ : EReal)
      (ReadP.val_main_v0 (F := Ideal) (Xc xr) (Wc Wr) ∘ red_row.lift (ix1 r))) = (M : EReal)
  rw [hfold]
  exact max_eq_right bot_le

/-- The logit less the row's maximum. -/
theorem shifted_apply (xr : SX.Idx → ℝ) (Wr : SW.Idx → ℝ) (r : Fin 4096) (j : Fin 32000) (M : ℝ)
    (hM : ReadP.val_main_call0_v2 (F := Ideal) (Xc xr) (Wc Wr) (ix1 r) = (M : EReal)) :
    ReadP.val_main_call0_v5 (F := Ideal) (Xc xr) (Wc Wr) (ix2 r j)
      = ((logitR xr Wr r j : ℝ) : EReal) - (M : EReal) := by
  have e : ReadP.idx_main_call0_v3 (ReadP.idx_main_call0_v4 (ix2 r j)) = ix1 r :=
    funext fun a => Fin.ext (by match a with | ⟨0, _⟩ => rfl)
  rw [ReadP.val_main_call0_v5_apply, ReadP.val_main_call0_v4_apply, ReadP.val_main_call0_v3_apply, logits_apply, e, hM,
    Ideal.subf_def]

/-- The row's sum of exponentials of the shifted logits, from the zero the sum starts at. -/
theorem sumexp_apply (xr : SX.Idx → ℝ) (Wr : SW.Idx → ℝ) (r : Fin 4096) (M : ℝ)
    (hM : ReadP.val_main_call0_v2 (F := Ideal) (Xc xr) (Wc Wr) (ix1 r) = (M : EReal)) :
    ReadP.val_main_call0_v7 (F := Ideal) (Xc xr) (Wc Wr) (ix1 r)
      = (0 : EReal) + ∑ k : Fin 32000, Ideal.exp (((logitR xr Wr r k : ℝ) : EReal) - (M : EReal)) := by
  have h0 : FloatOps.ofBits (F := Ideal) .f32 0x00000000#32 = (0 : EReal) := Ideal.ofBits_zero_f32
  rw [ReadP.val_main_call0_v7_apply, ReadP.val_main_call0_cst_1_apply, h0]
  refine congrArg (fun t => (0 : EReal) + t) (Finset.sum_congr rfl fun k _ => ?_)
  have e : ReadP.idx_main_call0_v7 (ix1 r) k = ix2 r k :=
    funext fun a => Fin.ext (by match a with | ⟨0, _⟩ => rfl | ⟨1, _⟩ => rfl)
  rw [ReadP.val_main_call0_v6_apply, e, shifted_apply xr Wr r k M hM, Ideal.hostUnary_exp_def]

/-- The log-softmax at `(r, j)`: the shifted logit less the log of the row's sum of exponentials. -/
theorem logp_apply (xr : SX.Idx → ℝ) (Wr : SW.Idx → ℝ) (r : Fin 4096) (j : Fin 32000) (M : ℝ)
    (hM : ReadP.val_main_call0_v2 (F := Ideal) (Xc xr) (Wc Wr) (ix1 r) = (M : EReal)) :
    ReadP.val_main_v1 (F := Ideal) (Xc xr) (Wc Wr) (ix2 r j)
      = (((logitR xr Wr r j : ℝ) : EReal) - (M : EReal))
        - Ideal.log ((0 : EReal) + ∑ k : Fin 32000, Ideal.exp (((logitR xr Wr r k : ℝ) : EReal) - (M : EReal))) := by
  have e : ReadP.idx_main_call0_v8 (ReadP.idx_main_call0_v10 (ix2 r j)) = ix1 r :=
    funext fun a => Fin.ext (by match a with | ⟨0, _⟩ => rfl)
  rw [ReadP.val_main_v1_apply, shifted_apply xr Wr r j M hM, ReadP.val_main_call0_v10_apply,
    ReadP.val_main_call0_v9_apply, ReadP.val_main_call0_v8_apply, e, sumexp_apply xr Wr r M hM,
    Ideal.hostUnary_log_def, Ideal.subf_def]

/-! ## The label chain: the class the gather reads, and that it is in range -/

/-- The label the reference uses: class 0 in place of the ignore index −100. -/
theorem label_apply (y : IVec SY 32) (r : Fin 4096) :
    ReadP.val_main_v4 (F := Ideal) y (ix1 r) = labelOf y r := by
  rw [ReadP.val_main_v4_apply, ReadP.val_main_v3_apply, ReadP.val_main_v2_apply, ReadP.val_main_c_apply,
    ReadP.val_main_call1_v1_apply, ReadP.val_main_call1_v0_apply, ReadP.val_main_c_0_apply]
  unfold labelOf
  by_cases h : y (ix1 r) = 4294967196#32
  · rw [if_pos h, cmpi_eq_iff.2 h, select_one]
  · rw [if_neg h, eq_zero_of_ne_one (fun hc => h (cmpi_eq_iff.1 hc)), select_zero]

/-- The start index of the gather: a label below 32000 is not negative as a signed word, so the wrap-around of
    negative indices (adding 32000) leaves it alone. -/
theorem gidx_apply (y : IVec SY 32) (hy : LabelsOk y) (r : Fin 4096) :
    ReadP.val_main_call2_v5 (F := Ideal) y (ix3 r (0 : Fin 1) (0 : Fin 1)) = labelOf y r := by
  have hlt := labelOf_lt hy r
  have e5 : ReadP.idx_main_call2_v5 (ix3 r (0 : Fin 1) (0 : Fin 1)) = ix2 r (0 : Fin 1) :=
    funext fun a => Fin.ext (by
      match a with
      | ⟨0, _⟩ => show ((r.val * 1 + 0) * 1 + 0) / 1 = r.val; omega
      | ⟨1, _⟩ => rfl)
  have e4 : ReadP.idx_main_v5 (ix2 r (0 : Fin 1)) = ix1 r :=
    funext fun a => Fin.ext (by match a with | ⟨0, _⟩ => rfl)
  have hc : IntOp.cmpi .slt (labelOf y r) 0#32 = 0#1 :=
    eq_zero_of_ne_one (fun hc => by
      have h := (slt_iff_toNat (by omega) (by decide)).1 hc
      simp at h)
  rw [ReadP.val_main_call2_v5_apply, e5, ReadP.val_main_call2_v4_apply, ReadP.val_main_call2_v1_apply,
    ReadP.val_main_v5_apply, e4, label_apply, ReadP.val_main_call2_v0_apply, ReadP.val_main_call2_c_apply,
    hc, select_zero]

/-- The unit axis of the in-range mask is reduced away. -/
theorem red_unit : S4096x1x1.Reduces [2] S4096x1 := by decide

/-- Row `r` with the unit coordinate put back on the reduced axis. -/
theorem lift_unit (r : Fin 4096) (k : Fin 1) :
    red_unit.lift (ix2 r (0 : Fin 1)) k = ix3 r (0 : Fin 1) (0 : Fin 1) :=
  funext fun a => Fin.ext (by
    match a with
    | ⟨0, _⟩ => rfl
    | ⟨1, _⟩ => rfl
    | ⟨2, _⟩ => show k.val = 0; omega)

/-- The in-range mask (0 ≤ index ∧ index ≤ 31999, and-reduced over a unit axis from 1) is set. -/
theorem inrange_apply (y : IVec SY 32) (hy : LabelsOk y) (r : Fin 4096) :
    ReadP.val_main_call2_v12 (F := Ideal) y (ix2 r (0 : Fin 1)) = 1#1 := by
  have hlt := labelOf_lt hy r
  have hge : IntOp.cmpi .sge (labelOf y r) 0#32 = 1#1 :=
    (sge_iff_toNat (by omega) (by decide)).2 (Nat.zero_le _)
  have hle : IntOp.cmpi .sle (labelOf y r) 31999#32 = 1#1 :=
    (sle_iff_toNat (by omega) (by decide)).2 (by show (labelOf y r).toNat ≤ 31999; omega)
  unfold ReadP.val_main_call2_v12
  rw [Host.reduce_eq_fold_single IntOp.andi _ _ reducesTo_S4096x1x1_S4096x1_d2 red_unit h_S_ (ix2 r (0 : Fin 1)),
    ReadP.val_main_call2_c_3_apply]
  -- a fold over the one coordinate of a unit axis is one application of the operation
  show (Finset.univ : Finset (Fin 1)).fold IntOp.andi 1#1
      (fun k : Fin 1 => ReadP.val_main_call2_v11 (F := Ideal) y (red_unit.lift (ix2 r (0 : Fin 1)) k)) = 1#1
  rw [Finset.univ_unique, Finset.fold_singleton]
  show IntOp.andi (ReadP.val_main_call2_v11 (F := Ideal) y (red_unit.lift (ix2 r (0 : Fin 1)) (default : Fin 1))) 1#1 = 1#1
  rw [lift_unit,
    ReadP.val_main_call2_v11_apply, ReadP.val_main_call2_v7_apply, ReadP.val_main_call2_v10_apply,
    gidx_apply y hy r, ReadP.val_main_call2_v6_apply, ReadP.val_main_call2_c_2_apply,
    ReadP.val_main_call2_v9_apply, ReadP.val_main_call2_v8_apply, ReadP.val_main_call2_c_1_apply, hge, hle]
  decide

/-! ## The gather, and the row's value -/

/-- The gather reads the log-softmax of row `r` at the row's label: the start index is the label, which read as a
    signed word and clamped into [0, 31999] is itself. -/
theorem gather_apply (xr : SX.Idx → ℝ) (Wr : SW.Idx → ℝ) (y : IVec SY 32) (hy : LabelsOk y) (r : Fin 4096) :
    ReadP.val_main_call2_v13 (F := Ideal) (Xc xr) y (Wc Wr) (ix2 r (0 : Fin 1))
      = ReadP.val_main_v1 (F := Ideal) (Xc xr) (Wc Wr) (ix2 r ⟨(labelOf y r).toNat, labelOf_lt hy r⟩) := by
  have hlt := labelOf_lt hy r
  have hg := Cert.LibTakeRow.gather_takeRow_apply (α := EReal) (B := 4096) (N := 32000) (w := 32) (by decide)
    gather_S4096x32000_S4096x1x1_S4096x1_n_1_0_0_1_2_11_wf
    (ReadP.val_main_v1 (F := Ideal) (Xc xr) (Wc Wr)) (ReadP.val_main_call2_v5 (F := Ideal) y) r
  refine hg.trans (congrArg (fun k => ReadP.val_main_v1 (F := Ideal) (Xc xr) (Wc Wr) (ix2 r k)) (Fin.ext ?_))
  show min (ReadP.val_main_call2_v5 (F := Ideal) y (ix3 r (0 : Fin 1) (0 : Fin 1))).toInt.toNat (32000 - 1)
    = (labelOf y r).toNat
  rw [gidx_apply y hy r, toInt_eq_toNat_of_lt (by omega), Int.toNat_natCast]
  omega

/-- The reference's per-row value (the stage before the masked mean), at real inputs and labels in range, is the
    row's loss. -/
theorem ref_rows (xr : SX.Idx → ℝ) (Wr : SW.Idx → ℝ) (y : IVec SY 32) (hy : LabelsOk y) (r : Fin 4096) :
    Cert.ReferenceIdeal.ReadP.val_main_v8 (F := Ideal) (fun i => ((xr i : ℝ) : EReal)) y (fun i => ((Wr i : ℝ) : EReal)) (ix1 r)
      = ((rowLossR xr Wr y r : ℝ) : EReal) := by
  obtain ⟨M, hM⟩ := rowmax_real xr Wr r
  have e7 : ReadP.idx_main_v7 (ix1 r) = ix2 r (0 : Fin 1) :=
    funext fun a => Fin.ext (by
      match a with
      | ⟨0, _⟩ => show r.val / 1 = r.val; omega
      | ⟨1, _⟩ => rfl)
  show ReadP.val_main_v8 (F := Ideal) (Xc xr) y (Wc Wr) (ix1 r) = _
  -- negate ∘ reshape ∘ select: the mask is set, so the value is minus the gathered log-softmax entry
  rw [ReadP.val_main_v8_apply, ReadP.val_main_v7_apply, e7, ReadP.val_main_v6_apply, inrange_apply y hy r, select_one,
    gather_apply xr Wr y hy r, logp_apply xr Wr r _ M hM, Ideal.hostNegf_def, Ideal.negf_def]
  -- −((z_s − M) − log (0 + ∑ exp (z − M))) is the row's loss, for any real shift M
  exact shifted_row (by decide) (logitR xr Wr r) ⟨(labelOf y r).toNat, labelOf_lt hy r⟩ M

end Cert.ReferenceIdeal.RefRows

end
-- ==== Proof.PreFacts.lean ====
/-
  What the precondition says of the inputs: every entry of x and of W is a real number (its absolute value is
  below +∞), and every label is the ignore index −100 or a class id in [0, 32000).
-/
import proofs.«424419_j3100966388353_3_alg».proof.Pre_finite_inputs
import proofs.«424419_j3100966388353_3_alg».proof.Proof.Gen.Pre_finite_inputs
import proofs.«424419_j3100966388353_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Spec

/-- The f32 word 0x7F800000 (exponent all ones, fraction zero, sign clear) denotes +∞. -/
theorem inf_word : Ideal.ofBits .f32 0x7F800000#32 = (⊤ : EReal) := by
  simp [Ideal.ofBits, Ideal.ieee]

/-- An extended real whose absolute value max v (−v) is below +∞ is a real: at −∞ the negation is +∞, at +∞ the
    value itself is, and in both cases the maximum is +∞. -/
theorem real_of_abs_lt (v : EReal)
    (hv : Ideal.cmp .olt (max v (-v)) (Ideal.ofBits .f32 0x7F800000#32) = 1#1) : ∃ r : ℝ, v = (r : EReal) := by
  rw [inf_word] at hv
  have hlt : max v (-v) < ⊤ := by
    simpa only [Ideal.cmp, StableHlo.Predicate.ofBool_eq_one_iff, decide_eq_true_eq] using hv
  induction v using EReal.rec with
  | bot => simp at hlt
  | top => simp at hlt
  | coe r => exact ⟨r, rfl⟩

/-- A word w with 0 ≤ w and w < 32000 as signed words has value below 32000. -/
theorem toNat_lt_of_range (w : BitVec 32) (h0 : IntOp.cmpi .sge w 0#32 = 1#1)
    (h1 : IntOp.cmpi .slt w 32000#32 = 1#1) : w.toNat < 32000 := by
  have a := IntOp.cmpi_sge.1 h0
  have b := IntOp.cmpi_slt.1 h1
  have e0 : (0#32 : BitVec 32).toInt = 0 := by decide
  have e1 : (32000#32 : BitVec 32).toInt = 32000 := by decide
  rw [e0] at a
  rw [e1] at b
  have hw := w.isLt
  rw [BitVec.toInt_eq_toNat_cond] at a b
  split at a <;> omega

/-- The shape with no axes has a single index. -/
instance : Subsingleton Cert.Pre_finite_inputs.S_.Idx := ⟨fun a b => funext fun d => d.elim0⟩

/-- The printed precondition, all ones, gives: x and W are arrays of reals, and the labels are in range. -/
theorem of_pre (x : FVec Ideal SX .f32) (y : IVec SY 32) (W : FVec Ideal SW .f32)
    (h : Cert.Pre_finite_inputs.fn (F := Ideal) x y W = fun _ => 1#1) :
    (∃ xr : SX.Idx → ℝ, x = fun i => ((xr i : ℝ) : EReal))
      ∧ (∃ Wr : SW.Idx → ℝ, W = fun i => ((Wr i : ℝ) : EReal))
      ∧ LabelsOk y := by
  have h0 := congrFun h ValueIdx.ix0
  dsimp only [Cert.Pre_finite_inputs.fn, Cert.Pre_finite_inputs.fn_part1] at h0
  obtain ⟨hxW, hy⟩ := IntOp.andi_eq_one.1 h0
  obtain ⟨hx, hW⟩ := IntOp.andi_eq_one.1 hxW
  refine ⟨?_, ?_, ?_⟩
  · -- every entry of x passes |x| < +∞
    have hx' : ∀ i, ∃ r : ℝ, x i = (r : EReal) := fun i =>
      real_of_abs_lt (x i) (Host.reduce_andi_all _ _ _ _ _ hx i)
    choose xr hxr using hx'
    exact ⟨xr, funext hxr⟩
  · -- likewise every entry of W
    have hW' : ∀ i, ∃ r : ℝ, W i = (r : EReal) := fun i =>
      real_of_abs_lt (W i) (Host.reduce_andi_all _ _ _ _ _ hW i)
    choose Wr hWr using hW'
    exact ⟨Wr, funext hWr⟩
  · -- at each row the label passes (y = −100) ∨ (0 ≤ y ∧ y < 32000), the compared arrays being constant
    intro r
    have hr : IntOp.ori (IntOp.cmpi .eq (y (ix1 r)) 4294967196#32)
        (IntOp.andi (IntOp.cmpi .sge (y (ix1 r)) 0#32) (IntOp.cmpi .slt (y (ix1 r)) 32000#32)) = 1#1 :=
      Host.reduce_andi_all _ _ _ _ _ hy (ix1 r)
    rcases IntOp.ori_eq_one.1 hr with he | hb
    · exact Or.inl (IntOp.cmpi_eq.1 he)
    · obtain ⟨hge, hlt⟩ := IntOp.andi_eq_one.1 hb
      exact Or.inr (toNat_lt_of_range _ hge hlt)

end Cert.PreFacts

end
-- ==== Proof.Bridge.lean ====
/-
  The two programs meet. Under the precondition the inputs are real arrays with labels in range; the kernel's
  result is the masked mean of its output column, whose rows are the row losses; the reference's result is the
  same masked mean of its per-row stage, which at every row is the same row loss. So the kernel's result buffer is
  the reference's last stage of the kernel's own inputs.
-/
import proofs.«424419_j3100966388353_3_alg».proof.Proof.KValue
import proofs.«424419_j3100966388353_3_alg».proof.Proof.RefRows
import proofs.«424419_j3100966388353_3_alg».proof.Proof.PreFacts

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.KValue Cert.Spec

/-- The reference's last stage is the masked mean of its per-row stage. -/
theorem ref_tail {F : FTy → Type} [FloatOps F] (x : FVec F S4096x4096 .f32) (y : IVec S4096 32) (W : FVec F S32000x4096 .f32) :
    Cert.ReferenceIdeal.ReadP.val_main_v16 (F := F) x y W
      = tailOf (F := F) (Cert.ReferenceIdeal.ReadP.val_main_v8 (F := F) x y W) y := rfl

/-- The output column read as a vector is, row by row, the reference's per-row stage. -/
theorem rows_eq (xr : SX.Idx → ℝ) (Wr : SW.Idx → ℝ) (y : SY.Idx → BitVec 32) (hy : LabelsOk y) :
    (shapeCast S4096 (lossCol xr Wr y) shapeCasts_S4096x1_S4096 : S4096.Idx → EReal)
      = Cert.ReferenceIdeal.ReadP.val_main_v8 (F := Ideal) (fun i => ((xr i : ℝ) : EReal)) y (fun i => ((Wr i : ℝ) : EReal)) := by
  funext i
  obtain ⟨r, rfl⟩ : ∃ r : Fin 4096, i = ix1 r := ⟨i 0, eq_ix1 i⟩
  refine (shapeCast_apply _ shapeCasts_S4096x1_S4096 (ix1 r) (ix2 r (0 : Fin 1))
    (by rewrite [Shape.rowMajor_val_two, Shape.rowMajor_val_one]; show r.val * 1 + 0 = r.val; omega)).trans ?_
  exact (Cert.ReferenceIdeal.RefRows.ref_rows xr Wr y hy r).symm

/-- Under the precondition the kernel's result buffer is the reference's last stage of the kernel's inputs. -/
theorem kernel_eq_ref (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1)) (m ((c.tc : Thread nD τ).loc main_arg2)) = fun _ => 1#1) :
    Pipeline.afterTail₀ cfgs (dats m) 0 (V0 m) [hostOps1] c main_v15
      = Cert.ReferenceIdeal.ReadP.val_main_v16 (F := Ideal) (m ((c.tc : Thread nD τ).loc main_arg0)) (m ((c.tc : Thread nD τ).loc main_arg1)) (m ((c.tc : Thread nD τ).loc main_arg2)) := by
  obtain ⟨⟨xr, hx⟩, ⟨Wr, hW⟩, hy⟩ := Cert.PreFacts.of_pre _ _ _ hpre
  rw [result_eq, final3 m xr Wr c hx hW _ rfl hy, ref_tail]
  refine congrArg (fun v => tailOf (F := Ideal) v (m ((c.tc : Thread nD τ).loc main_arg1))) ?_
  rw [hx, hW]
  exact rows_eq xr Wr _ hy

/-- The kernel's run, with its result named: every weakly fair execution terminates with the result buffer at the
    reference's last stage of the inputs and the inputs unchanged. -/
theorem kernel_run (m : (ℓ : Loc nD τ sig) → Buf (Elt Ideal) ℓ) (ρ : Dev nD → PrngReg)
    (hpre : ∀ c : Dev nD, Cert.Pre_finite_inputs.fn (F := Ideal) (m ((c.tc : Thread nD τ).loc main_arg0)) (m ((c.tc : Thread nD τ).loc main_arg1)) (m ((c.tc : Thread nD τ).loc main_arg2)) = fun _ => 1#1) :
    θ_run defs (onTc (τ := τ) (main (F := Ideal))) ⟨m, fun _ => 0, ρ⟩ fun r => ∀ c : Dev nD,
      r.2.mem ((c.tc : Thread nD τ).loc main_v15)
          = Cert.ReferenceIdeal.ReadP.val_main_v16 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v15 (Pipeline.mem_restRefs_of main_v15 (by decide) (by decide))).trans (kernel_eq_ref m c (hpre c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.Bridge

end
-- ==== Proof.RefOpsPlain.lean ====
/- The reference's 60 host operations, in order, each typed-reference builder of proof/Proof/RefOps.lean's `ops` written as the
   plain builder it abbreviates (the function ascribed at the carried types). A table, made by the script named in line 1;
   that the two lists are equal, and what the run computes, is proved in proof/Proof/RefRun.lean. -/
import proofs.«424419_j3100966388353_3_alg».proof.Proof.RefOps

noncomputable section

namespace Cert.ReferenceIdeal.OpsP

open Cert.ReferenceIdeal Cert.ReferenceIdeal.Gen Idealize.ShloMosaic Idealize.ShloMosaic.TcCoe Idealize.SL.Sem Idealize.ShloMosaic.StableHlo

variable {F : FTy → Type} [FloatOps F]

abbrev ops' : List (HloOp τ sig (Elt F)) :=
  [ binary main_arg0 main_arg2 main_v0 ((fun l r => Host.dotGeneral dot_S4096x4096_S32000x4096_S4096x32000_1_1_0_0_n_n none l r) : (⟨S4096x4096, .f32⟩ : BufTy).Contents (Elt F) → (⟨S32000x4096, .f32⟩ : BufTy).Contents (Elt F) → (⟨S4096x32000, .f32⟩ : BufTy).Contents (Elt F)),
    nullary main_call0_cst ((constant S_ .f32 0xFF800000#32) : (⟨S_, .f32⟩ : BufTy).Contents (Elt F)),
    binary main_v0 main_call0_cst main_call0_v0 ((fun x v => Host.reduce FloatOps.maximumf x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    nullary main_call0_cst_0 ((constant S_ .f32 0xFF800000#32) : (⟨S_, .f32⟩ : BufTy).Contents (Elt F)),
    unary main_call0_cst_0 main_call0_v1 ((broadcastInDim S4096 ![] bcast_S_S4096) : (⟨S_, .f32⟩ : BufTy).Contents (Elt F) → (⟨S4096, .f32⟩ : BufTy).Contents (Elt F)),
    binary main_call0_v1 main_call0_v0 main_call0_v2 (maximumf : (⟨S4096, .f32⟩ : BufTy).Contents (Elt F) → (⟨S4096, .f32⟩ : BufTy).Contents (Elt F) → (⟨S4096, .f32⟩ : BufTy).Contents (Elt F)),
    unary main_call0_v2 main_call0_v3 ((broadcastInDim S4096x1 ![0] bcast_S4096_S4096x1_0) : (⟨S4096, .f32⟩ : BufTy).Contents (Elt F) → (⟨S4096x1, .f32⟩ : BufTy).Contents (Elt F)),
    unary main_call0_v3 main_call0_v4 ((broadcastInDim S4096x32000 ![0, 1] bcast_S4096x1_S4096x32000_0_1) : (⟨S4096x1, .f32⟩ : BufTy).Contents (Elt F) → (⟨S4096x32000, .f32⟩ : BufTy).Contents (Elt F)),
    binary main_v0 main_call0_v4 main_call0_v5 (subf : (⟨S4096x32000, .f32⟩ : BufTy).Contents (Elt F) → (⟨S4096x32000, .f32⟩ : BufTy).Contents (Elt F) → (⟨S4096x32000, .f32⟩ : BufTy).Contents (Elt F)),
    unary main_call0_v5 main_call0_v6 (Host.exp : (⟨S4096x32000, .f32⟩ : BufTy).Contents (Elt F) → (⟨S4096x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    unary main_call0_v7 main_call0_v8 ((broadcastInDim S4096x1 ![0] bcast_S4096_S4096x1_0) : (⟨S4096, .f32⟩ : BufTy).Contents (Elt F) → (⟨S4096x1, .f32⟩ : BufTy).Contents (Elt F)),
    unary main_call0_v8 main_call0_v9 (Host.log : (⟨S4096x1, .f32⟩ : BufTy).Contents (Elt F) → (⟨S4096x1, .f32⟩ : BufTy).Contents (Elt F)),
    unary main_call0_v9 main_call0_v10 ((broadcastInDim S4096x32000 ![0, 1] bcast_S4096x1_S4096x32000_0_1) : (⟨S4096x1, .f32⟩ : BufTy).Contents (Elt F) → (⟨S4096x32000, .f32⟩ : BufTy).Contents (Elt F)),
    binary main_call0_v5 main_call0_v10 main_v1 (subf : (⟨S4096x32000, .f32⟩ : BufTy).Contents (Elt F) → (⟨S4096x32000, .f32⟩ : BufTy).Contents (Elt F) → (⟨S4096x32000, .f32⟩ : BufTy).Contents (Elt F)),
    nullary main_c (constantI S_ 32 4294967196#32),
    unary main_c main_v2 (broadcastInDim S4096 ![] bcast_S_S4096 : (⟨S_, .i32⟩ : BufTy).Contents (Elt F) → (⟨S4096, .i32⟩ : BufTy).Contents (Elt F)),
    binary main_arg1 main_v2 main_v3 (cmpi .eq : (⟨S4096, .i32⟩ : BufTy).Contents (Elt F) → (⟨S4096, .i32⟩ : BufTy).Contents (Elt F) → (⟨S4096, .i1⟩ : BufTy).Contents (Elt F)),
    nullary main_c_0 (constantI S_ 32 0#32),
    unary main_c_0 main_call1_v0 (id : (⟨S_, .i32⟩ : BufTy).Contents (Elt F) → (⟨S_, .i32⟩ : BufTy).Contents (Elt F)),
    unary main_call1_v0 main_call1_v1 ((broadcastInDim S4096 ![] bcast_S_S4096) : (⟨S_, .i32⟩ : BufTy).Contents (Elt F) → (⟨S4096, .i32⟩ : BufTy).Contents (Elt F)),
    ternary main_v3 main_call1_v1 main_arg1 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v4 main_v5 (broadcastInDim S4096x1 ![0] bcast_S4096_S4096x1_0 : (⟨S4096, .i32⟩ : BufTy).Contents (Elt F) → (⟨S4096x1, .i32⟩ : BufTy).Contents (Elt F)),
    nullary main_call2_c ((constantI S_ 32 0#32) : (⟨S_, .i32⟩ : BufTy).Contents (Elt F)),
    unary main_call2_c main_call2_v0 ((broadcastInDim S4096x1 ![] bcast_S_S4096x1) : (⟨S_, .i32⟩ : BufTy).Contents (Elt F) → (⟨S4096x1, .i32⟩ : BufTy).Contents (Elt F)),
    binary main_v5 main_call2_v0 main_call2_v1 ((cmpi .slt) : (⟨S4096x1, .i32⟩ : BufTy).Contents (Elt F) → (⟨S4096x1, .i32⟩ : BufTy).Contents (Elt F) → (⟨S4096x1, .i1⟩ : BufTy).Contents (Elt F)),
    nullary main_call2_c_0 ((constantI S_ 32 32000#32) : (⟨S_, .i32⟩ : BufTy).Contents (Elt F)),
    unary main_call2_c_0 main_call2_v2 ((broadcastInDim S4096x1 ![] bcast_S_S4096x1) : (⟨S_, .i32⟩ : BufTy).Contents (Elt F) → (⟨S4096x1, .i32⟩ : BufTy).Contents (Elt F)),
    binary main_v5 main_call2_v2 main_call2_v3 (addi : (⟨S4096x1, .i32⟩ : BufTy).Contents (Elt F) → (⟨S4096x1, .i32⟩ : BufTy).Contents (Elt F) → (⟨S4096x1, .i32⟩ : BufTy).Contents (Elt F)),
    ternary main_call2_v1 main_call2_v3 main_v5 main_call2_v4 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    reshape main_call2_v4 main_call2_v5 rfl shapeCasts_S4096x1_S4096x1x1,
    nullary main_call2_c_1 ((constantI S1 32 31999#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S4096x1x1 ![] bcast_S_S4096x1x1) : (⟨S_, .i32⟩ : BufTy).Contents (Elt F) → (⟨S4096x1x1, .i32⟩ : BufTy).Contents (Elt F)),
    binary main_call2_v5 main_call2_v6 main_call2_v7 ((cmpi .sge) : (⟨S4096x1x1, .i32⟩ : BufTy).Contents (Elt F) → (⟨S4096x1x1, .i32⟩ : BufTy).Contents (Elt F) → (⟨S4096x1x1, .i1⟩ : BufTy).Contents (Elt F)),
    unary main_call2_c_1 main_call2_v8 ((broadcastInDim S1x1x1 ![2] bcast_S1_S1x1x1_2) : (⟨S1, .i32⟩ : BufTy).Contents (Elt F) → (⟨S1x1x1, .i32⟩ : BufTy).Contents (Elt F)),
    unary main_call2_v8 main_call2_v9 ((broadcastInDim S4096x1x1 ![0, 1, 2] bcast_S1x1x1_S4096x1x1_0_1_2) : (⟨S1x1x1, .i32⟩ : BufTy).Contents (Elt F) → (⟨S4096x1x1, .i32⟩ : BufTy).Contents (Elt F)),
    binary main_call2_v5 main_call2_v9 main_call2_v10 ((cmpi .sle) : (⟨S4096x1x1, .i32⟩ : BufTy).Contents (Elt F) → (⟨S4096x1x1, .i32⟩ : BufTy).Contents (Elt F) → (⟨S4096x1x1, .i1⟩ : BufTy).Contents (Elt F)),
    binary main_call2_v7 main_call2_v10 main_call2_v11 (andi : (⟨S4096x1x1, .i1⟩ : BufTy).Contents (Elt F) → (⟨S4096x1x1, .i1⟩ : BufTy).Contents (Elt F) → (⟨S4096x1x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S4096x1x1_S4096x1_d2 h_S_) : (⟨S4096x1x1, .i1⟩ : BufTy).Contents (Elt F) → (⟨S_, .i1⟩ : BufTy).Contents (Elt F) → (⟨S4096x1, .i1⟩ : BufTy).Contents (Elt F)),
    binary main_v1 main_call2_v5 main_call2_v13 ((fun x i => Host.gather gather_S4096x32000_S4096x1x1_S4096x1_n_1_0_0_1_2_11 x i) : (⟨S4096x32000, .f32⟩ : BufTy).Contents (Elt F) → (⟨S4096x1x1, .i32⟩ : BufTy).Contents (Elt F) → (⟨S4096x1, .f32⟩ : BufTy).Contents (Elt F)),
    nullary main_call2_cst ((constant S_ .f32 0x7FC00000#32) : (⟨S_, .f32⟩ : BufTy).Contents (Elt F)),
    unary main_call2_cst main_call2_v14 ((broadcastInDim S4096x1 ![] bcast_S_S4096x1) : (⟨S_, .f32⟩ : BufTy).Contents (Elt F) → (⟨S4096x1, .f32⟩ : BufTy).Contents (Elt F)),
    ternary main_call2_v12 main_call2_v13 main_call2_v14 main_v6 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)),
    reshape main_v6 main_v7 rfl shapeCasts_S4096x1_S4096,
    unary main_v7 main_v8 (Host.negf : (⟨S4096, .f32⟩ : BufTy).Contents (Elt F) → (⟨S4096, .f32⟩ : BufTy).Contents (Elt F)),
    nullary main_c_1 (constantI S_ 32 4294967196#32),
    unary main_c_1 main_v9 (broadcastInDim S4096 ![] bcast_S_S4096 : (⟨S_, .i32⟩ : BufTy).Contents (Elt F) → (⟨S4096, .i32⟩ : BufTy).Contents (Elt F)),
    binary main_arg1 main_v9 main_v10 (cmpi .ne : (⟨S4096, .i32⟩ : BufTy).Contents (Elt F) → (⟨S4096, .i32⟩ : BufTy).Contents (Elt F) → (⟨S4096, .i1⟩ : BufTy).Contents (Elt F)),
    unary main_v10 main_v11 (uitofp .f32 : (⟨S4096, .i1⟩ : BufTy).Contents (Elt F) → (⟨S4096, .f32⟩ : BufTy).Contents (Elt F)),
    nullary main_cst (constant S_ .f32 0x00000000#32),
    binary main_v11 main_cst main_v12 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_2 (constant S_ .f32 0x3F800000#32),
    binary main_v12 main_cst_2 main_v13 (maximumf : (⟨S_, .f32⟩ : BufTy).Contents (Elt F) → (⟨S_, .f32⟩ : BufTy).Contents (Elt F) → (⟨S_, .f32⟩ : BufTy).Contents (Elt F)),
    binary main_v8 main_v11 main_v14 (mulf : (⟨S4096, .f32⟩ : BufTy).Contents (Elt F) → (⟨S4096, .f32⟩ : BufTy).Contents (Elt F) → (⟨S4096, .f32⟩ : BufTy).Contents (Elt F)),
    nullary main_cst_3 (constant S_ .f32 0x00000000#32),
    binary main_v14 main_cst_3 main_v15 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    binary main_v15 main_v13 main_v16 (Host.divf : (⟨S_, .f32⟩ : BufTy).Contents (Elt F) → (⟨S_, .f32⟩ : BufTy).Contents (Elt F) → (⟨S_, .f32⟩ : BufTy).Contents (Elt F)) ]

end Cert.ReferenceIdeal.OpsP

end
-- ==== Proof.RefRun.lean ====
/-
  The reference's run: every weakly fair execution of its host program terminates with the result buffer at the
  composition of its sixty operations' stages — the matrix product, the max-shifted log-softmax, the label
  selection and gather, and the masked mean — and the arguments unchanged.

  The operations that come from functions inlined at their call sites carry their operands' tensor types and move
  values to and from the buffers' own types along equalities that hold by computation; each such operation IS the
  plain operation on the same buffers with the same function (`ops_eq`, one operation at a time; the long row
  reductions are kept folded while the two spellings are compared). Over the plain list the buffers' contents
  after the run compose into the last stage directly.
-/
import proofs.«424419_j3100966388353_3_alg».proof.Proof.RefOpsPlain
import proofs.«424419_j3100966388353_3_alg».proof.Proof.RefRead

noncomputable section

namespace Cert.ReferenceIdeal.RunP

open Cert.ReferenceIdeal Cert.ReferenceIdeal.Gen Cert.ReferenceIdeal.OpsP Idealize.ShloMosaic Idealize.ShloMosaic.TcCoe Idealize.SL.Sem Idealize.ShloMosaic.StableHlo

variable {F : FTy → Type} [FloatOps F]

attribute [local irreducible] Host.reduce Host.reduceAdd in
set_option maxRecDepth 8192 in
/-- The operation list as generated and the list over the plain builders are one list: each inlined operation is its
    plain operation, the moves along the buffers' type equalities being identities. -/
theorem ops_eq : (ops (F := F)) = ops' := by
  simp only [ops, ops', List.cons.injEq, and_true, true_and]
  repeat' apply And.intro
  all_goals rfl

set_option maxRecDepth 8192 in
set_option maxHeartbeats 2000000 in
/-- Over the plain list: the result buffer after the operations, from any contents `V` of the device's buffers, is
    the last stage of the arguments' contents. -/
theorem after_ops'_result (V : Valuation τ sig (Elt F)) :
    after (ops' (F := F)) V (Proc.devRef .tc main_v16)
      = Cert.ReferenceIdeal.ReadP.val_main_v16 (F := F) (V (Proc.devRef .tc main_arg0)) (V (Proc.devRef .tc main_arg1)) (V (Proc.devRef .tc main_arg2)) := by
  after_results_simp <;> rfl

/-- The result buffer after the operations, from any contents `V` of the device's buffers, is the last stage of the
    arguments' contents. -/
theorem after_ops_result (V : Valuation τ sig (Elt F)) :
    after (ops (F := F)) V (Proc.devRef .tc main_v16)
      = Cert.ReferenceIdeal.ReadP.val_main_v16 (F := F) (V (Proc.devRef .tc main_arg0)) (V (Proc.devRef .tc main_arg1)) (V (Proc.devRef .tc main_arg2)) := by
  rw [ops_eq]; exact after_ops'_result V

set_option maxRecDepth 8192 in
set_option maxHeartbeats 2000000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
          = Cert.ReferenceIdeal.ReadP.val_main_v16 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v16).trans (after_ops_result _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunP

end
-- ==== Proof.lean ====
/-
  The proof of `Cert.Claim`: a fused linear-layer + cross-entropy kernel against its jnp reference, over the extended
  reals, for real inputs and labels that are the ignore index −100 or a class id in [0, 32000).

  Both programs compute, per row r with logits z_j = ∑_h x[r,h] · W[j,h] and label s (class 0 for the ignore index),
  the loss  log ∑_j exp z_j − z_s,  and then the mean of the losses over the rows whose label is not the ignore index.
  The reference shifts by the row maximum before exponentiating; the kernel accumulates the sum over 25 runs of
  1280 classes with a running shift that starts at a large negative finite number and a running sum rescaled whenever
  the shift moves. Since  μ + log ∑_j exp (z_j − μ) = log ∑_j exp z_j  for every real μ, neither shift matters
  (Proof/Spec.lean). The kernel's three running columns are followed over the 200 grid points (Proof/KRows.lean),
  its output column and the host operations after it are read off the frame run (Proof/KValue.lean), the reference
  is read row by row (Proof/RefRows.lean) over its run (Proof/RefRun.lean), the precondition gives the real arrays and
  the label range (Proof/PreFacts.lean), and Proof/Bridge.lean joins the two results.
  The three frames are the generated frame runs (the reference's frame is its run with the result dropped);
  nothing was rewritten by the idealization, so `preserves` is trivial.
-/
import proofs.«424419_j3100966388353_3_alg».proof.Defs
import proofs.«424419_j3100966388353_3_alg».proof.Proof.Gen.Kernel
import proofs.«424419_j3100966388353_3_alg».proof.Proof.Gen.Kernel.Skeleton
import proofs.«424419_j3100966388353_3_alg».proof.Proof.Gen.Kernel.Launch
import proofs.«424419_j3100966388353_3_alg».proof.Proof.Gen.Kernel.Points
import proofs.«424419_j3100966388353_3_alg».proof.Proof.Gen.Kernel.Frame
import proofs.«424419_j3100966388353_3_alg».proof.Proof.Gen.KernelIdeal
import proofs.«424419_j3100966388353_3_alg».proof.Proof.Gen.KernelIdeal.Skeleton
import proofs.«424419_j3100966388353_3_alg».proof.Proof.Gen.KernelIdeal.Launch
import proofs.«424419_j3100966388353_3_alg».proof.Proof.Gen.KernelIdeal.Points
import proofs.«424419_j3100966388353_3_alg».proof.Proof.Gen.KernelIdeal.Frame
import proofs.«424419_j3100966388353_3_alg».proof.Proof.Gen.ReferenceIdeal
import proofs.«424419_j3100966388353_3_alg».proof.Proof.Gen.Pre_finite_inputs
import proofs.«424419_j3100966388353_3_alg».proof.Proof.Bridge
import proofs.«424419_j3100966388353_3_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end at the reference's last stage of the (agreeing) inputs. -/
theorem algebraic : Cert.algebraic_KernelIdeal_ReferenceIdeal := by
  intro m ρ m' ρ' hpre hagree
  refine ⟨fun c => Cert.ReferenceIdeal.ReadP.val_main_v16 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Bridge.kernel_run m ρ hpre, ?_⟩
  refine (θ_run Cert.ReferenceIdeal.defs _ _).mono (fun _ h c => ⟨?_, (h c).2⟩)
    (Cert.ReferenceIdeal.RunP.run (F := Ideal) m' ρ')
  rw [(h c).1, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
